-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1152x8 : Shape := ⟨3, ![64, 1152, 8]⟩
abbrev S64x16x8 : Shape := ⟨3, ![64, 16, 8]⟩
abbrev S_ : Shape := ⟨0, ![]⟩

class Facts : Prop where
  bcast_S_S64x1152x8 : S_.BroadcastsInDim S64x1152x8 (![] : Fin 0 → Fin S64x1152x8.rank)
  reducesTo_S64x1152x8_S_d0_1_2 : S64x1152x8.ReducesTo [0, 1, 2] S_
  h_S_ : 0 < S_.numel
  bcast_S_S64x16x8 : S_.BroadcastsInDim S64x16x8 (![] : Fin 0 → Fin S64x16x8.rank)
  reducesTo_S64x16x8_S_d0_1_2 : S64x16x8.ReducesTo [0, 1, 2] S_

variable [Facts]

def fn {F : FTy → Type} [FloatOps F] (main_arg0 : FVec F S64x1152x8 .f32) (main_arg1 : FVec F S64x16x8 .f32) : IVec S_ 1 :=
  let main_v0 : FVec F S64x1152x8 .f32 := Host.absf main_arg0
  let main_cst : FVec F S_ .f32 := constant S_ .f32 0x7F800000#32
  let main_v1 : FVec F S64x1152x8 .f32 := broadcastInDim S64x1152x8 ![] bcast_S_S64x1152x8 main_cst
  let main_v2 : IVec S64x1152x8 1 := cmpf .olt main_v0 main_v1
  let main_c : IVec S_ 1 := constantI S_ 1 1#1
  let main_v3 : IVec S_ 1 := (fun x v => Host.reduce IntOp.andi x v reducesTo_S64x1152x8_S_d0_1_2 h_S_) main_v2 main_c
  let main_v4 : FVec F S64x16x8 .f32 := Host.absf main_arg1
  let main_cst_0 : FVec F S_ .f32 := constant S_ .f32 0x7F800000#32
  let main_v5 : FVec F S64x16x8 .f32 := broadcastInDim S64x16x8 ![] bcast_S_S64x16x8 main_cst_0
  let main_v6 : IVec S64x16x8 1 := cmpf .olt main_v4 main_v5
  let main_c_1 : IVec S_ 1 := constantI S_ 1 1#1
  let main_v7 : IVec S_ 1 := (fun x v => Host.reduce IntOp.andi x v reducesTo_S64x16x8_S_d0_1_2 h_S_) main_v6 main_c_1
  let main_v8 : IVec S_ 1 := andi main_v3 main_v7
  main_v8
-- ==== Kernel.lean ====
abbrev S64x1152x8 : Shape := ⟨3, ![64, 1152, 8]⟩
abbrev S64x16x8 : Shape := ⟨3, ![64, 16, 8]⟩
abbrev S1024x8 : Shape := ⟨2, ![1024, 8]⟩
abbrev S1024 : Shape := ⟨1, ![1024]⟩
abbrev S_ : Shape := ⟨0, ![]⟩
abbrev S64 : Shape := ⟨1, ![64]⟩
abbrev S1024x1 : Shape := ⟨2, ![1024, 1]⟩
abbrev S1x64 : Shape := ⟨2, ![1, 64]⟩
abbrev S1024x64 : Shape := ⟨2, ![1024, 64]⟩
abbrev S64x1 : Shape := ⟨2, ![64, 1]⟩
abbrev S1x1024 : Shape := ⟨2, ![1, 1024]⟩
abbrev S64x1024 : Shape := ⟨2, ![64, 1024]⟩
abbrev S64x1024x1 : Shape := ⟨3, ![64, 1024, 1]⟩
abbrev S64x64x1152 : Shape := ⟨3, ![64, 64, 1152]⟩
abbrev S1x1152x8 : Shape := ⟨3, ![1, 1152, 8]⟩
abbrev S1x1024x1 : Shape := ⟨3, ![1, 1024, 1]⟩
abbrev S1x64x1152 : Shape := ⟨3, ![1, 64, 1152]⟩
abbrev S1152x8 : Shape := ⟨2, ![1152, 8]⟩
abbrev S1024x1152 : Shape := ⟨2, ![1024, 1152]⟩
abbrev S64x1152 : Shape := ⟨2, ![64, 1152]⟩
abbrev S64x64x16 : Shape := ⟨3, ![64, 64, 16]⟩

abbrev nBuf : Space → Nat
  | .hbm => 38
  | .vmem => 9
  | .smem => 0
  | _ => 0

abbrev bufTy : (tb : Table) → Fin (tcTables nBuf tb) → BufTy
  | .hbm, ⟨0, _⟩ => ⟨S64x1152x8, .f32⟩
  | .hbm, ⟨1, _⟩ => ⟨S64x16x8, .f32⟩
  | .hbm, ⟨2, _⟩ => ⟨S1024x8, .f32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S64, .i32⟩
  | .hbm, ⟨23, _⟩ => ⟨S1024x1, .i32⟩
  | .hbm, ⟨24, _⟩ => ⟨S1x64, .i32⟩
  | .hbm, ⟨25, _⟩ => ⟨S1024x64, .i32⟩
  | .hbm, ⟨26, _⟩ => ⟨S1024x64, .i32⟩
  | .hbm, ⟨27, _⟩ => ⟨S1024x64, .i1⟩
  | .hbm, ⟨28, _⟩ => ⟨S1024x64, .f32⟩
  | .hbm, ⟨29, _⟩ => ⟨S64x1, .i32⟩
  | .hbm, ⟨30, _⟩ => ⟨S1x1024, .i32⟩
  | .hbm, ⟨31, _⟩ => ⟨S64x1024, .i32⟩
  | .hbm, ⟨32, _⟩ => ⟨S64x1024, .i32⟩
  | .hbm, ⟨33, _⟩ => ⟨S64x1024, .i1⟩
  | .hbm, ⟨34, _⟩ => ⟨S64x1024, .f32⟩
  | .hbm, ⟨35, _⟩ => ⟨S64x1024x1, .f32⟩
  | .hbm, ⟨36, _⟩ => ⟨S64x64x1152, .f32⟩
  | .hbm, ⟨37, _⟩ => ⟨S64x64x16, .f32⟩
  | .local _ .vmem, ⟨0, _⟩ => ⟨S1x1152x8, .f32⟩
  | .local _ .vmem, ⟨1, _⟩ => ⟨S1x1152x8, .f32⟩
  | .local _ .vmem, ⟨2, _⟩ => ⟨S1024x8, .f32⟩
  | .local _ .vmem, ⟨3, _⟩ => ⟨S1024x64, .f32⟩
  | .local _ .vmem, ⟨4, _⟩ => ⟨S64x1024, .f32⟩
  | .local _ .vmem, ⟨5, _⟩ => ⟨S1x1024x1, .f32⟩
  | .local _ .vmem, ⟨6, _⟩ => ⟨S1x1024x1, .f32⟩
  | .local _ .vmem, ⟨7, _⟩ => ⟨S1x64x1152, .f32⟩
  | .local _ .vmem, ⟨8, _⟩ => ⟨S1x64x1152, .f32⟩
  | _, _ => ⟨S64x1152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1152x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x16x8_S1024x8 : S64x16x8.ShapeCasts S1024x8
  bcast_S_S1024 : S_.BroadcastsInDim S1024 (![] : Fin 0 → Fin S1024.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S64_S64x1_0 : S64.BroadcastsInDim S64x1 (![0] : Fin 1 → Fin S64x1.rank)
  bcast_S1024_S1x1024_1 : S1024.BroadcastsInDim S1x1024 (![1] : Fin 1 → Fin S1x1024.rank)
  bcast_S64x1_S64x1024_0_1 : S64x1.BroadcastsInDim S64x1024 (![0, 1] : Fin 2 → Fin S64x1024.rank)
  bcast_S1x1024_S64x1024_0_1 : S1x1024.BroadcastsInDim S64x1024 (![0, 1] : Fin 2 → Fin S64x1024.rank)
  inb_S1x1152x8_S1x1152x8_0_0_0 : ∀ a, (![0, 0, 0] : Fin 3 → Nat) a + S1x1152x8.size a ≤ S1x1152x8.size a
  h_S1x1152x8 : 0 < S1x1152x8.numel
  shapeCasts_S1x1152x8_S1152x8 : S1x1152x8.ShapeCasts S1152x8
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  reduces_S1024x1152_S1024 : S1024x1152.Reduces [1] S1024
  shapeCasts_S1024_S1024x1 : S1024.ShapeCasts S1024x1
  broadcasts_S1024x1_S1024x1152 : S1024x1.Broadcasts S1024x1152
  reduces_S64x1152_S64 : S64x1152.Reduces [1] S64
  shapeCasts_S64_S64x1 : S64.ShapeCasts S64x1
  broadcasts_S64x1_S64x1152 : S64x1.Broadcasts S64x1152
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x64x1152_S1x64x1152_0_0_0 : ∀ a, (![0, 0, 0] : Fin 3 → Nat) a + S1x64x1152.size a ≤ S1x64x1152.size a
  h_S1x64x1152 : 0 < S1x64x1152.numel
  shapeCasts_S1x64x1152_S64x1152 : S1x64x1152.ShapeCasts S64x1152
  shapeCasts_S64x1152_S1x64x1152 : S64x1152.ShapeCasts S1x64x1152
  shapeCasts_S64x1024x1_S64x64x16 : S64x1024x1.ShapeCasts S64x64x16
  dot_S1024x8_S1152x8_S1024x1152_1_1_0_0_n_n_wf : DotDims.WF S1024x8 S1152x8 S1024x1152 [1] [1] [0] [0] [] []
  dot_S64x1024_S1024x1_S64x1_1_0_0_1_n_n_wf : DotDims.WF S64x1024 S1024x1 S64x1 [1] [0] [0] [1] [] []
  dot_S1024x64_S64x1_S1024x1_1_0_0_1_n_n_wf : DotDims.WF S1024x64 S64x1 S1024x1 [1] [0] [0] [1] [] []
  dot_S64x1024_S1024x1152_S64x1152_1_0_0_1_n_n_wf : DotDims.WF S64x1024 S1024x1152 S64x1152 [1] [0] [0] [1] [] []
  dot_S1024x64_S64x1152_S1024x1152_1_0_0_1_n_n_wf : DotDims.WF S1024x64 S64x1152 S1024x1152 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1152x8.size a ≤ S64x1152x8.size a
  hwx0_0 : ∀ i : grid0.Coords, EltTy.bits .f32 = 32 ∨ (Rect.block (s := S64x1152x8) S1x1152x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S64x1024x1.size a
  hwx0_4 : ∀ i : grid0.Coords, EltTy.bits .f32 = 32 ∨ (Rect.block (s := S64x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1152.size a ≤ S64x64x1152.size a
  hwx0_5 : ∀ i : grid0.Coords, EltTy.bits .f32 = 32 ∨ (Rect.block (s := S64x64x1152) S1x64x1152.size (cc0_transform_5 i) (hinb0_5 i)).WholeWords (EltTy.packing .f32)

variable [Facts₀]

def dot_S1024x8_S1152x8_S1024x1152_1_1_0_0_n_n : DotDims S1024x8 S1152x8 S1024x1152 where
  lhsContracting := [1]
  rhsContracting := [1]
  lhsNonContracting := [0]
  rhsNonContracting := [0]
  lhsBatch := []
  rhsBatch := []
  wf := dot_S1024x8_S1152x8_S1024x1152_1_1_0_0_n_n_wf
def dot_S64x1024_S1024x1_S64x1_1_0_0_1_n_n : DotDims S64x1024 S1024x1 S64x1 where
  lhsContracting := [1]
  rhsContracting := [0]
  lhsNonContracting := [0]
  rhsNonContracting := [1]
  lhsBatch := []
  rhsBatch := []
  wf := dot_S64x1024_S1024x1_S64x1_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S64x1024_S1024x1152_S64x1152_1_0_0_1_n_n : DotDims S64x1024 S1024x1152 S64x1152 where
  lhsContracting := [1]
  rhsContracting := [0]
  lhsNonContracting := [0]
  rhsNonContracting := [1]
  lhsBatch := []
  rhsBatch := []
  wf := dot_S64x1024_S1024x1152_S64x1152_1_0_0_1_n_n_wf
def dot_S1024x64_S64x1152_S1024x1152_1_0_0_1_n_n : DotDims S1024x64 S64x1152 S1024x1152 where
  lhsContracting := [1]
  rhsContracting := [0]
  lhsNonContracting := [0]
  rhsNonContracting := [1]
  lhsBatch := []
  rhsBatch := []
  wf := dot_S1024x64_S64x1152_S1024x1152_1_0_0_1_n_n_wf

abbrev win0_0 : Pipeline.Window sig grid0 :=
  Pipeline.Window.ofSpec (Memref.whole main_arg0) S1x1152x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x64x1152.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1152x8 : Shape := ⟨3, ![64, 1152, 8]⟩
abbrev S64x16x8 : Shape := ⟨3, ![64, 16, 8]⟩
abbrev S64x1152x64x16 : Shape := ⟨4, ![64, 1152, 64, 16]⟩
abbrev S64x64x1152x16 : Shape := ⟨4, ![64, 64, 1152, 16]⟩
abbrev S_ : Shape := ⟨0, ![]⟩
abbrev S64x64x16 : Shape := ⟨3, ![64, 64, 16]⟩
abbrev S64x64x1x16 : Shape := ⟨4, ![64, 64, 1, 16]⟩
abbrev S64x64x1 : Shape := ⟨3, ![64, 64, 1]⟩
abbrev S64x64x1x1 : Shape := ⟨4, ![64, 64, 1, 1]⟩
abbrev S64x64x1152 : Shape := ⟨3, ![64, 64, 1152]⟩
abbrev S64x64x1152x1 : Shape := ⟨4, ![64, 64, 1152, 1]⟩

abbrev nBuf : Space → Nat
  | .hbm => 114
  | .vmem => 0
  | .smem => 0
  | _ => 0

abbrev bufTy : (tb : Table) → Fin (tcTables nBuf tb) → BufTy
  | .hbm, ⟨0, _⟩ => ⟨S64x1152x8, .f32⟩
  | .hbm, ⟨1, _⟩ => ⟨S64x16x8, .f32⟩
  | .hbm, ⟨2, _⟩ => ⟨S64x1152x64x16, .f32⟩
  | .hbm, ⟨3, _⟩ => ⟨S64x64x1152x16, .f32⟩
  | .hbm, ⟨4, _⟩ => ⟨S_, .f32⟩
  | .hbm, ⟨5, _⟩ => ⟨S64x64x16, .f32⟩
  | .hbm, ⟨6, _⟩ => ⟨S64x64x1x16, .f32⟩
  | .hbm, ⟨7, _⟩ => ⟨S_, .f32⟩
  | .hbm, ⟨8, _⟩ => ⟨S64x64x1x16, .f32⟩
  | .hbm, ⟨9, _⟩ => ⟨S64x64x1x16, .f32⟩
  | .hbm, ⟨10, _⟩ => ⟨S64x64x1x16, .f32⟩
  | .hbm, ⟨11, _⟩ => ⟨S_, .f32⟩
  | .hbm, ⟨12, _⟩ => ⟨S64x64x1, .f32⟩
  | .hbm, ⟨13, _⟩ => ⟨S64x64x1x1, .f32⟩
  | .hbm, ⟨14, _⟩ => ⟨S64x64x1x1, .f32⟩
  | .hbm, ⟨15, _⟩ => ⟨S_, .f32⟩
  | .hbm, ⟨16, _⟩ => ⟨S64x64x1x1, .f32⟩
  | .hbm, ⟨17, _⟩ => ⟨S64x64x1x1, .f32⟩
  | .hbm, ⟨18, _⟩ => ⟨S64x64x1x16, .f32⟩
  | .hbm, ⟨19, _⟩ => ⟨S64x64x1x16, .f32⟩
  | .hbm, ⟨20, _⟩ => ⟨S64x64x1152x16, .f32⟩
  | .hbm, ⟨21, _⟩ => ⟨S64x64x1152x16, .f32⟩
  | .hbm, ⟨22, _⟩ => ⟨S_, .f32⟩
  | .hbm, ⟨23, _⟩ => ⟨S64x64x1152, .f32⟩
  | .hbm, ⟨24, _⟩ => ⟨S64x64x1152x1, .f32⟩
  | .hbm, ⟨25, _⟩ => ⟨S_, .f32⟩
  | .hbm, ⟨26, _⟩ => ⟨S64x64x1, .f32⟩
  | .hbm, ⟨27, _⟩ => ⟨S_, .f32⟩
  | .hbm, ⟨28, _⟩ => ⟨S64x64x1, .f32⟩
  | .hbm, ⟨29, _⟩ => ⟨S64x64x1, .f32⟩
  | .hbm, ⟨30, _⟩ => ⟨S64x64x1x1, .f32⟩
  | .hbm, ⟨31, _⟩ => ⟨S64x64x1152x1, .f32⟩
  | .hbm, ⟨32, _⟩ => ⟨S64x64x1152x1, .f32⟩
  | .hbm, ⟨33, _⟩ => ⟨S64x64x1152x1, .f32⟩
  | .hbm, ⟨34, _⟩ => ⟨S_, .f32⟩
  | .hbm, ⟨35, _⟩ => ⟨S64x64x1, .f32⟩
  | .hbm, ⟨36, _⟩ => ⟨S64x64x1x1, .f32⟩
  | .hbm, ⟨37, _⟩ => ⟨S64x64x1152x1, .f32⟩
  | .hbm, ⟨38, _⟩ => ⟨S64x64x1152x1, .f32⟩
  | .hbm, ⟨39, _⟩ => ⟨S64x64x1152x16, .f32⟩
  | .hbm, ⟨40, _⟩ => ⟨S64x64x1152x16, .f32⟩
  | .hbm, ⟨41, _⟩ => ⟨S_, .f32⟩
  | .hbm, ⟨42, _⟩ => ⟨S64x64x16, .f32⟩
  | .hbm, ⟨43, _⟩ => ⟨S64x64x1x16, .f32⟩
  | .hbm, ⟨44, _⟩ => ⟨S64x64x1x16, .f32⟩
  | .hbm, ⟨45, _⟩ => ⟨S_, .f32⟩
  | .hbm, ⟨46, _⟩ => ⟨S64x64x1, .f32⟩
  | .hbm, ⟨47, _⟩ => ⟨S64x64x1x1, .f32⟩
  | .hbm, ⟨48, _⟩ => ⟨S64x64x1x1, .f32⟩
  | .hbm, ⟨49, _⟩ => ⟨S_, .f32⟩
  | .hbm, ⟨50, _⟩ => ⟨S64x64x1x1, .f32⟩
  | .hbm, ⟨51, _⟩ => ⟨S64x64x1x1, .f32⟩
  | .hbm, ⟨52, _⟩ => ⟨S64x64x1x16, .f32⟩
  | .hbm, ⟨53, _⟩ => ⟨S64x64x1x16, .f32⟩
  | .hbm, ⟨54, _⟩ => ⟨S64x64x1152x16, .f32⟩
  | .hbm, ⟨55, _⟩ => ⟨S64x64x1152x16, .f32⟩
  | .hbm, ⟨56, _⟩ => ⟨S_, .f32⟩
  | .hbm, ⟨57, _⟩ => ⟨S64x64x1152, .f32⟩
  | .hbm, ⟨58, _⟩ => ⟨S64x64x1152x1, .f32⟩
  | .hbm, ⟨59, _⟩ => ⟨S_, .f32⟩
  | .hbm, ⟨60, _⟩ => ⟨S64x64x1, .f32⟩
  | .hbm, ⟨61, _⟩ => ⟨S_, .f32⟩
  | .hbm, ⟨62, _⟩ => ⟨S64x64x1, .f32⟩
  | .hbm, ⟨63, _⟩ => ⟨S64x64x1, .f32⟩
  | .hbm, ⟨64, _⟩ => ⟨S64x64x1x1, .f32⟩
  | .hbm, ⟨65, _⟩ => ⟨S64x64x1152x1, .f32⟩
  | .hbm, ⟨66, _⟩ => ⟨S64x64x1152x1, .f32⟩
  | .hbm, ⟨67, _⟩ => ⟨S64x64x1152x1, .f32⟩
  | .hbm, ⟨68, _⟩ => ⟨S_, .f32⟩
  | .hbm, ⟨69, _⟩ => ⟨S64x64x1, .f32⟩
  | .hbm, ⟨70, _⟩ => ⟨S64x64x1x1, .f32⟩
  | .hbm, ⟨71, _⟩ => ⟨S64x64x1152x1, .f32⟩
  | .hbm, ⟨72, _⟩ => ⟨S64x64x1152x1, .f32⟩
  | .hbm, ⟨73, _⟩ => ⟨S64x64x1152x16, .f32⟩
  | .hbm, ⟨74, _⟩ => ⟨S64x64x1152x16, .f32⟩
  | .hbm, ⟨75, _⟩ => ⟨S_, .f32⟩
  | .hbm, ⟨76, _⟩ => ⟨S64x64x16, .f32⟩
  | .hbm, ⟨77, _⟩ => ⟨S64x64x1x16, .f32⟩
  | .hbm, ⟨78, _⟩ => ⟨S64x64x1x16, .f32⟩
  | .hbm, ⟨79, _⟩ => ⟨S_, .f32⟩
  | .hbm, ⟨80, _⟩ => ⟨S64x64x1, .f32⟩
  | .hbm, ⟨81, _⟩ => ⟨S64x64x1x1, .f32⟩
  | .hbm, ⟨82, _⟩ => ⟨S64x64x1x1, .f32⟩
  | .hbm, ⟨83, _⟩ => ⟨S_, .f32⟩
  | .hbm, ⟨84, _⟩ => ⟨S64x64x1x1, .f32⟩
  | .hbm, ⟨85, _⟩ => ⟨S64x64x1x1, .f32⟩
  | .hbm, ⟨86, _⟩ => ⟨S64x64x1x16, .f32⟩
  | .hbm, ⟨87, _⟩ => ⟨S64x64x1x16, .f32⟩
  | .hbm, ⟨88, _⟩ => ⟨S64x64x1152x16, .f32⟩
  | .hbm, ⟨89, _⟩ => ⟨S64x64x1152x16, .f32⟩
  | .hbm, ⟨90, _⟩ => ⟨S_, .f32⟩
  | .hbm, ⟨91, _⟩ => ⟨S64x64x1152, .f32⟩
  | .hbm, ⟨92, _⟩ => ⟨S64x64x1152x1, .f32⟩
  | .hbm, ⟨93, _⟩ => ⟨S_, .f32⟩
  | .hbm, ⟨94, _⟩ => ⟨S64x64x1, .f32⟩
  | .hbm, ⟨95, _⟩ => ⟨S_, .f32⟩
  | .hbm, ⟨96, _⟩ => ⟨S64x64x1, .f32⟩
  | .hbm, ⟨97, _⟩ => ⟨S64x64x1, .f32⟩
  | .hbm, ⟨98, _⟩ => ⟨S64x64x1x1, .f32⟩
  | .hbm, ⟨99, _⟩ => ⟨S64x64x1152x1, .f32⟩
  | .hbm, ⟨100, _⟩ => ⟨S64x64x1152x1, .f32⟩
  | .hbm, ⟨101, _⟩ => ⟨S64x64x1152x1, .f32⟩
  | .hbm, ⟨102, _⟩ => ⟨S_, .f32⟩
  | .hbm, ⟨103, _⟩ => ⟨S64x64x1, .f32⟩
  | .hbm, ⟨104, _⟩ => ⟨S64x64x1x1, .f32⟩
  | .hbm, ⟨105, _⟩ => ⟨S64x64x1152x1, .f32⟩
  | .hbm, ⟨106, _⟩ => ⟨S64x64x1152x1, .f32⟩
  | .hbm, ⟨107, _⟩ => ⟨S64x64x1152x16, .f32⟩
  | .hbm, ⟨108, _⟩ => ⟨S64x64x1152x16, .f32⟩
  | .hbm, ⟨109, _⟩ => ⟨S_, .f32⟩
  | .hbm, ⟨110, _⟩ => ⟨S64x64x16, .f32⟩
  | .hbm, ⟨111, _⟩ => ⟨S64x64x1x16, .f32⟩
  | .hbm, ⟨112, _⟩ => ⟨S64x64x16, .f32⟩
  | .hbm, ⟨113, _⟩ => ⟨S64x64x1152, .f32⟩
  | _, _ => ⟨S64x1152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_call1_v2 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_call2_v0 : Ref sig .tc := ⟨.hbm, 78, rfl⟩
abbrev main_call2_cst : Ref sig .tc := ⟨.hbm, 79, rfl⟩
abbrev main_call2_v1 : Ref sig .tc := ⟨.hbm, 80, rfl⟩
abbrev main_call2_v2 : Ref sig .tc := ⟨.hbm, 81, rfl⟩
abbrev main_v54 : Ref sig .tc := ⟨.hbm, 82, rfl⟩
abbrev main_cst_13 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  transposes_S64x1152x64x16_S64x64x1152x16_0_2_1_3 : S64x1152x64x16.Transposes [0, 2, 1, 3] S64x64x1152x16
  reducesTo_S64x64x1152x16_S64x64x16_d2 : S64x64x1152x16.ReducesTo [2] S64x64x16
  h_S_ : 0 < S_.numel
  bcast_S64x64x16_S64x64x1x16_0_1_3 : S64x64x16.BroadcastsInDim S64x64x1x16 (![0, 1, 3] : Fin 3 → Fin S64x64x1x16.rank)
  bcast_S_S64x64x1x16 : S_.BroadcastsInDim S64x64x1x16 (![] : Fin 0 → Fin S64x64x1x16.rank)
  reducesTo_S64x64x1x16_S64x64x1_d3 : S64x64x1x16.ReducesTo [3] S64x64x1
  bcast_S64x64x1_S64x64x1x1_0_1_2 : S64x64x1.BroadcastsInDim S64x64x1x1 (![0, 1, 2] : Fin 3 → Fin S64x64x1x1.rank)
  bcast_S_S64x64x1x1 : S_.BroadcastsInDim S64x64x1x1 (![] : Fin 0 → Fin S64x64x1x1.rank)
  bcast_S64x64x1x1_S64x64x1x16_0_1_2_3 : S64x64x1x1.BroadcastsInDim S64x64x1x16 (![0, 1, 2, 3] : Fin 4 → Fin S64x64x1x16.rank)
  bcast_S64x64x1x16_S64x64x1152x16_0_1_2_3 : S64x64x1x16.BroadcastsInDim S64x64x1152x16 (![0, 1, 2, 3] : Fin 4 → Fin S64x64x1152x16.rank)
  reducesTo_S64x64x1152x16_S64x64x1152_d3 : S64x64x1152x16.ReducesTo [3] S64x64x1152
  bcast_S64x64x1152_S64x64x1152x1_0_1_2 : S64x64x1152.BroadcastsInDim S64x64x1152x1 (![0, 1, 2] : Fin 3 → Fin S64x64x1152x1.rank)
  reducesTo_S64x64x1152x1_S64x64x1_d2 : S64x64x1152x1.ReducesTo [2] S64x64x1
  bcast_S_S64x64x1 : S_.BroadcastsInDim S64x64x1 (![] : Fin 0 → Fin S64x64x1.rank)
  bcast_S64x64x1_S64x64x1x1_0_1_3 : S64x64x1.BroadcastsInDim S64x64x1x1 (![0, 1, 3] : Fin 3 → Fin S64x64x1x1.rank)
  bcast_S64x64x1x1_S64x64x1152x1_0_1_2_3 : S64x64x1x1.BroadcastsInDim S64x64x1152x1 (![0, 1, 2, 3] : Fin 4 → Fin S64x64x1152x1.rank)
  bcast_S64x64x1152x1_S64x64x1152x16_0_1_2_3 : S64x64x1152x1.BroadcastsInDim S64x64x1152x16 (![0, 1, 2, 3] : Fin 4 → Fin S64x64x1152x16.rank)
  shapeCasts_S64x64x1x16_S64x64x16 : S64x64x1x16.ShapeCasts S64x64x16
  shapeCasts_S64x64x1152x1_S64x64x1152 : S64x64x1152x1.ShapeCasts S64x64x1152
  dot_S64x1152x8_S64x16x8_S64x1152x64x16_2_2_01_01_n_n_wf : DotDims.WF S64x1152x8 S64x16x8 S64x1152x64x16 [2] [2] [0, 1] [0, 1] [] []

variable [Facts₀]

def dot_S64x1152x8_S64x16x8_S64x1152x64x16_2_2_01_01_n_n : DotDims S64x1152x8 S64x16x8 S64x1152x64x16 where
  lhsContracting := [2]
  rhsContracting := [2]
  lhsNonContracting := [0, 1]
  rhsNonContracting := [0, 1]
  lhsBatch := []
  rhsBatch := []
  wf := dot_S64x1152x8_S64x16x8_S64x1152x64x16_2_2_01_01_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«130596_j28552942584473_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.Routing.lean ====
/-
  Dynamic routing between capsules for one batch element, as plain functions of extended reals.

  From the inputs `x [n, i]` (1152 input capsules of length 8) and the weights `w [o, l, i]` (64 output capsules of
  length 16) the PRIORS are `P o n l = ∑ᵢ x n i · w o l i`. The first centroid is the mean of the priors over the input
  capsules, `c₀ o l = (∑ₙ P o n l) / 1152`. One ROUND takes a centroid `c` to the next: the centroid of each output
  capsule is divided by `max (‖c o ·‖, ε)`, the LOGIT of input capsule `n` for output capsule `o` is the inner
  product over `l` of the priors with that normalised centroid, the COUPLING `prob` is the softmax of the logits along
  `n`, and the next centroid is the priors averaged with the couplings, `∑ₙ prob o n · P o n l`. Three rounds are run; the
  results are the third centroid and the couplings of the third round.

  Two programs that compute this lay the pair `(o, l)` out differently: one keeps the two axes, the other flattens them
  to `j = 16·o + l` and moves between `j` and `o` by products with the 0/1 matrix `[j / 16 = o]`. `sum_group` and
  `sum_pick` read those two products; `mul_one_div` says that multiplying by the reciprocal of a nonzero `d` is
  dividing by `d`, at the infinities too, and `denom_ne_zero` that the normaliser `max (‖·‖, ε)` is never zero.
-/
import Idealize.ShloMosaic.Lib.ValueIdx
import Idealize.ShloMosaic.PureOps.Ideal.Laws
import proofs.«130596_j28552942584473_1_alg».proof.Proof.LibDenseLayer

noncomputable section

namespace Cert.Routing

open Idealize.ShloMosaic Idealize.ShloMosaic.ValueIdx Cert.DenseLayer

/-- A centroid per output capsule: `c o l`. -/
abbrev Cen : Type := Fin 64 → Fin 16 → EReal
/-- The priors: `P o n l`. -/
abbrev Pri : Type := Fin 64 → Fin 1152 → Fin 16 → EReal

/-- The priors of one batch element: input capsule `n` seen through output capsule `o`'s weights. -/
def priors (x : Fin 1152 → Fin 8 → EReal) (w : Fin 64 → Fin 16 → Fin 8 → EReal) : Pri :=
  fun o n l => ∑ i : Fin 8, x n i * w o l i

/-- The first centroid: the mean of the priors over the 1152 input capsules (the divisor the word a program writes). -/
def mean0 (P : Pri) : Cen :=
  fun o l => Ideal.div (∑ n : Fin 1152, P o n l) (Ideal.ofBits .f32 0x44900000#32)

/-- The normaliser of output capsule `o`: the Euclidean norm of its centroid, kept at least `ε`. -/
def denom (c : Cen) (o : Fin 64) : EReal :=
  max (Ideal.sqrt (∑ l : Fin 16, c o l * c o l)) (Ideal.ofBits .f32 0x2B8CBCCC#32)

/-- The logits of output capsule `o`: the priors against the normalised centroid. -/
def logit (P : Pri) (c : Cen) (o : Fin 64) : Fin 1152 → EReal :=
  fun n => ∑ l : Fin 16, P o n l * Ideal.div (c o l) (denom c o)

/-- The couplings: the softmax of the logits along the input capsules. -/
def prob (P : Pri) (c : Cen) (o : Fin 64) (n : Fin 1152) : EReal := softmaxRow (logit P c o) n

/-- One round: the priors averaged with the couplings. -/
def next (P : Pri) (c : Cen) : Cen := fun o l => ∑ n : Fin 1152, prob P c o n * P o n l

/-- The centroid after two rounds, -/
def cen2 (P : Pri) : Cen := next P (next P (mean0 P))
/-- after three, -/
def cen3 (P : Pri) : Cen := next P (cen2 P)
/-- and the couplings of the third round. -/
def prob3 (P : Pri) : Fin 64 → Fin 1152 → EReal := prob P (cen2 P)

/-- The flattened position of `(o, l)`. -/
def flat (o : Fin 64) (l : Fin 16) : Fin 1024 := ⟨o.val * 16 + l.val, by omega⟩

/-- The output capsule a flattened position belongs to. -/
def capOf (j : Fin 1024) : Fin 64 := ⟨j.val / 16, by omega⟩
/-- Its position inside the capsule. -/
def posOf (j : Fin 1024) : Fin 16 := ⟨j.val % 16, by omega⟩

theorem flat_capOf_posOf (j : Fin 1024) : flat (capOf j) (posOf j) = j :=
  Fin.ext (by show j.val / 16 * 16 + j.val % 16 = j.val; omega)
theorem capOf_flat (o : Fin 64) (l : Fin 16) : capOf (flat o l) = o :=
  Fin.ext (by show (o.val * 16 + l.val) / 16 = o.val; omega)
theorem posOf_flat (o : Fin 64) (l : Fin 16) : posOf (flat o l) = l :=
  Fin.ext (by show (o.val * 16 + l.val) % 16 = l.val; omega)

/-- The whole first result, `[64, 64, 16]`: the third centroid of each batch element. -/
def outArr (x : (⟨3, ![64, 1152, 8]⟩ : Shape).Idx → EReal) (w : (⟨3, ![64, 16, 8]⟩ : Shape).Idx → EReal) :
    (⟨3, ![64, 64, 16]⟩ : Shape).Idx → EReal :=
  fun i => cen3 (priors (fun n k => x (ix3 (i 0) n k)) (fun o l k => w (ix3 o l k))) (i 1) (i 2)

/-- The whole second result, `[64, 64, 1152]`: the third round's couplings of each batch element. -/
def probArr (x : (⟨3, ![64, 1152, 8]⟩ : Shape).Idx → EReal) (w : (⟨3, ![64, 16, 8]⟩ : Shape).Idx → EReal) :
    (⟨3, ![64, 64, 1152]⟩ : Shape).Idx → EReal :=
  fun i => prob3 (priors (fun n k => x (ix3 (i 0) n k)) (fun o l k => w (ix3 o l k))) (i 1) (i 2)

/-- Flattening is a bijection between the pairs `(o, l)` and the flattened positions. -/
private def flatEquiv : Fin 64 × Fin 16 ≃ Fin 1024 where
  toFun p := flat p.1 p.2
  invFun j := (capOf j, posOf j)
  left_inv p := Prod.ext (capOf_flat p.1 p.2) (posOf_flat p.1 p.2)
  right_inv j := flat_capOf_posOf j

/-! ## The facts the two layouts meet in -/

/-- The word `1.0` is one. -/
theorem one_word : Ideal.ofBits .f32 0x3F800000#32 = 1 := by
  rw [show (1 : EReal) = ((1 : ℝ) : EReal) by norm_cast]
  simp [Ideal.ofBits, Ideal.ieee, -EReal.coe_mul]; norm_num

/-- The word `ε` is positive. -/
theorem eps_pos : (0 : EReal) < Ideal.ofBits .f32 0x2B8CBCCC#32 := by
  simp [Ideal.ofBits, Ideal.ieee, -EReal.coe_mul]

/-- The normaliser is at least `ε`, so it is not zero. -/
theorem denom_ne_zero (c : Cen) (o : Fin 64) : denom c o ≠ 0 :=
  ne_of_gt (lt_of_lt_of_le eps_pos (le_max_right _ _))

/-- Multiplying by the reciprocal of a nonzero `d` is dividing by `d`, on all extended reals. -/
theorem mul_one_div (x d : EReal) (hd : d ≠ 0) :
    x * Ideal.div (Ideal.ofBits .f32 0x3F800000#32) d = Ideal.div x d := by
  rw [one_word, Ideal.div, Ideal.div, if_neg hd, if_neg hd, one_mul]

/-- A sum over the flattened positions weighted by the 0/1 matrix `[j / 16 = o]` is the sum over capsule `o`. -/
theorem sum_group (f : Fin 1024 → EReal) (o : Fin 64) :
    ∑ j : Fin 1024, (if j.val / 16 = o.val then (1 : EReal) else 0) * f j = ∑ l : Fin 16, f (flat o l) := by
  -- the 0/1 weight selects the terms whose capsule is `o`
  have hw : ∀ j : Fin 1024, (if j.val / 16 = o.val then (1 : EReal) else 0) * f j = if capOf j = o then f j else 0 := by
    intro j
    have hc : (j.val / 16 = o.val) ↔ capOf j = o := by
      constructor
      · intro h; exact Fin.ext h
      · intro h; exact congrArg Fin.val h
    by_cases h : capOf j = o
    · rw [if_pos (hc.mpr h), if_pos h, one_mul]
    · rw [if_neg (fun h' => h (hc.mp h')), if_neg h, zero_mul]
  simp_rw [hw]
  -- re-index the flattened positions by the pair (capsule, position)
  rw [← Equiv.sum_comp flatEquiv (fun j => if capOf j = o then f j else 0), Fintype.sum_prod_type]
  show ∑ o' : Fin 64, ∑ l : Fin 16, (if capOf (flat o' l) = o then f (flat o' l) else 0) = _
  simp_rw [capOf_flat]
  rw [Finset.sum_eq_single o]
  · simp
  · intro o' _ hne; simp [hne]
  · intro h; exact absurd (Finset.mem_univ o) h

/-- A sum over the capsules weighted by the same matrix picks the capsule of `j`. -/
theorem sum_pick (h : Fin 64 → EReal) (j : Fin 1024) :
    ∑ o : Fin 64, (if j.val / 16 = o.val then (1 : EReal) else 0) * h o = h (capOf j) := by
  rw [Finset.sum_eq_single (capOf j)]
  · rw [if_pos (show j.val / 16 = (capOf j).val from rfl), one_mul]
  · intro o _ hne
    rw [if_neg (fun h' => hne (Fin.ext h'.symm)), zero_mul]
  · intro h'; exact absurd (Finset.mem_univ _) h'

end Cert.Routing

end
-- ==== Proof.KernelHost.lean ====
/-
  What the kernel's region finds in the three arrays the host lines before it compute: the weights flattened
  to `[1024, 8]` (row `j = 16·o + l` is `w o l ·`), and the two 0/1 grouping matrices, `[1024, 64]` and `[64, 1024]`,
  whose entry at `(j, o)` (at `(o, j)`) is one exactly when position `j` belongs to capsule `o`, that is `j / 16 = o`.
  The host computes `j / 16` by a floor division of an iota written out over 32-bit words (quotient, signs,
  remainder, a select): for `0 ≤ j < 1024` the select keeps the plain quotient.
-/
import proofs.«130596_j28552942584473_1_alg».proof.Proof.Gen.KernelIdeal.Frame
import proofs.«130596_j28552942584473_1_alg».proof.Proof.Routing
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.HostGlue

open Cert.KernelIdeal Cert.KernelIdeal.Gen Idealize.ShloMosaic Idealize.ShloMosaic.TcCoe Idealize.ShloMosaic.ValueIdx
open Idealize.SL.Sem Cert.Routing

variable (m : (ℓ : Loc nD τ sig) → Buf (Elt Ideal) ℓ)

/-- The sign of a 32-bit word: 0, -1 or 1. -/
def sgnWord (x : BitVec 32) : BitVec 32 := if x = 0 then 0 else if x.msb then -1 else 1

/-- The floor division of a 32-bit word by 16, as the host spells it. -/
def fdWord (x : BitVec 32) : BitVec 32 :=
  Scalar.select
    (IntOp.andi
      (IntOp.cmpi .ne (sgnWord x) (sgnWord 16#32))
      (IntOp.cmpi .ne (IntOp.remsi .host x 16#32) 0#32))
    (IntOp.subi (IntOp.divsi .host x 16#32) 1#32)
    (IntOp.divsi .host x 16#32)

/-- On the positions `0 … 1023` the select keeps the plain quotient: the word is that of `n / 16`. -/
theorem fdWord_ofNat : ∀ n : Fin 1024, fdWord (BitVec.ofNat 32 n.val) = BitVec.ofNat 32 (n.val / 16) := by
  decide +kernel

/-- The host's floor division of the positions by 16, as an array of words. -/
def fdArr : IVec S1024 32 :=
  select
    (andi
      (cmpi .ne (signi (iotaInDim S1024 32 0))
        (broadcastInDim S1024 ![] bcast_S_S1024 (signi (constantI S_ 32 16#32))))
      (cmpi .ne (Host.remsi (iotaInDim S1024 32 0) (broadcastInDim S1024 ![] bcast_S_S1024 (constantI S_ 32 16#32)))
        (broadcastInDim S1024 ![] bcast_S_S1024 (constantI S_ 32 0#32))))
    (subi (Host.divsi (iotaInDim S1024 32 0) (broadcastInDim S1024 ![] bcast_S_S1024 (constantI S_ 32 16#32)))
      (broadcastInDim S1024 ![] bcast_S_S1024 (constantI S_ 32 1#32)))
    (Host.divsi (iotaInDim S1024 32 0) (broadcastInDim S1024 ![] bcast_S_S1024 (constantI S_ 32 16#32)))

/-- The quotient array at position `j` is the word of `j / 16`. -/
theorem fdArr_apply (j : Fin 1024) : fdArr (ix1 j) = BitVec.ofNat 32 (j.val / 16) :=
  fdWord_ofNat j

/-- The buffers' contents after the first two stretches of host operations, the floor division being the last of them. -/
def V1 (c : Dev nD) : Valuation τ sig (Elt Ideal) :=
  StableHlo.after (Gen.hostOps0 ++ Gen.hostOps0_1) (fun b => m (c, b))

/-- The contents the region finds are those after the third stretch, run from there. -/
theorem V0_split (c : Dev nD) : Gen.V0 m c = StableHlo.after Gen.hostOps0_2 (V1 m c) := by
  show StableHlo.after (List.flatten [Gen.hostOps0, Gen.hostOps0_1, Gen.hostOps0_2]) _ = _
  rw [List.flatten_cons, List.flatten_cons, List.flatten_cons, List.flatten_nil, List.append_nil, ← List.append_assoc,
    StableHlo.after_append]
  rfl

/-- After the first two stretches the quotient array is the floor division of the positions. -/
theorem V1_v2 (c : Dev nD) : (V1 m c (Proc.devRef .tc main_v2) : IVec S1024 32) = fdArr := by
  unfold V1
  simp only [Gen.hostOps0, Gen.hostOps0_1, List.cons_append, List.nil_append]
  after_results
  rfl

/-- The grouping matrix as the host computes it: the quotients along the rows against the capsule numbers along the columns. -/
def gArr : S1024x64.Idx → EReal :=
  uitofp (F := Ideal) .f32 (cmpi .eq
    (broadcastInDim S1024x64 ![0, 1] bcast_S1024x1_S1024x64_0_1 (broadcastInDim S1024x1 ![0] bcast_S1024_S1024x1_0 fdArr))
    (broadcastInDim S1024x64 ![0, 1] bcast_S1x64_S1024x64_0_1 (broadcastInDim S1x64 ![1] bcast_S64_S1x64_1 (iotaInDim S64 32 0))))

/-- Its transpose as the host computes it. -/
def gtArr : S64x1024.Idx → EReal :=
  uitofp (F := Ideal) .f32 (cmpi .eq
    (broadcastInDim S64x1024 ![0, 1] bcast_S64x1_S64x1024_0_1 (broadcastInDim S64x1 ![0] bcast_S64_S64x1_0 (iotaInDim S64 32 0)))
    (broadcastInDim S64x1024 ![0, 1] bcast_S1x1024_S64x1024_0_1 (broadcastInDim S1x1024 ![1] bcast_S1024_S1x1024_1 fdArr)))

/-- The region finds the grouping matrix the host computes, -/
theorem v9_eq (c : Dev nD) : (V m c main_v9 : S1024x64.Idx → EReal) = gArr := by
  show Gen.V0 m c (Proc.devRef .tc main_v9) = _
  rw [V0_split]
  simp only [Gen.hostOps0_2]
  after_results
  rw [V1_v2]
  rfl

/-- and its transpose. -/
theorem v15_eq (c : Dev nD) : (V m c main_v15 : S64x1024.Idx → EReal) = gtArr := by
  show Gen.V0 m c (Proc.devRef .tc main_v15) = _
  rw [V0_split]
  simp only [Gen.hostOps0_2]
  after_results
  rw [V1_v2]
  rfl

/-! ## The arrays read at a position -/

/-- The two spellings of a rank-2 index from its coordinates agree, -/
theorem ij_eq_ix2 {n k : Nat} (p : Fin n) (q : Fin k) : StableHlo.Predicate.ij p q = ix2 p q := by
  funext a; match a with | ⟨0, _⟩ => rfl | ⟨1, _⟩ => rfl
/-- and so do the two of a rank-1 index. -/
theorem ofFin_eq_ix1 {n : Nat} (p : Fin n) : Shape.Idx.ofFin p = ix1 p := by
  funext a; match a with | ⟨0, _⟩ => rfl

/-- Two small naturals as 32-bit words are equal exactly when they are, and the widened bit of the comparison is the
    indicator of that. -/
theorem uitofp_cmpi_eq (a b : ℕ) (ha : a < 4294967296) (hb : b < 4294967296) :
    (FloatOps.uitofp (F := Ideal) .f32 (IntOp.cmpi .eq (BitVec.ofNat 32 a) (BitVec.ofNat 32 b)) : EReal)
      = if a = b then 1 else 0 := by
  by_cases h : a = b
  · subst h
    rw [if_pos rfl, StableHlo.Predicate.cmpi_eq_iff.mpr rfl]
    show (((1#1 : BitVec 1).toNat : ℝ) : EReal) = 1
    simp
  · rw [if_neg h]
    have hz : IntOp.cmpi .eq (BitVec.ofNat 32 a) (BitVec.ofNat 32 b) = 0#1 := eq_zero_of_ne_one fun h1 => h (by
      have e := congrArg BitVec.toNat (StableHlo.Predicate.cmpi_eq_iff.mp h1)
      simp only [BitVec.toNat_ofNat, Nat.reducePow] at e
      omega)
    rw [hz]
    show (((0#1 : BitVec 1).toNat : ℝ) : EReal) = 0
    simp

/-- The grouping matrix at `(j, o)`: the indicator of `j / 16 = o`. -/
theorem gArr_apply (j : Fin 1024) (o : Fin 64) :
    gArr (ix2 j o) = if j.val / 16 = o.val then (1 : EReal) else 0 := by
  have e1 : broadcastInDim S1024x64 ![0, 1] bcast_S1024x1_S1024x64_0_1
      (broadcastInDim S1024x1 ![0] bcast_S1024_S1024x1_0 fdArr) (ix2 j o) = BitVec.ofNat 32 (j.val / 16) := by
    rw [← ij_eq_ix2, StableHlo.Predicate.bcast_rows, ofFin_eq_ix1]
    exact fdArr_apply j
  have e2 : broadcastInDim S1024x64 ![0, 1] bcast_S1x64_S1024x64_0_1
      (broadcastInDim S1x64 ![1] bcast_S64_S1x64_1 (iotaInDim S64 32 0)) (ix2 j o) = BitVec.ofNat 32 o.val := by
    rw [← ij_eq_ix2, StableHlo.Predicate.bcast_cols]
    exact StableHlo.Predicate.iota_apply o
  show (FloatOps.uitofp (F := Ideal) .f32 (IntOp.cmpi .eq
    (broadcastInDim S1024x64 ![0, 1] bcast_S1024x1_S1024x64_0_1
      (broadcastInDim S1024x1 ![0] bcast_S1024_S1024x1_0 fdArr) (ix2 j o))
    (broadcastInDim S1024x64 ![0, 1] bcast_S1x64_S1024x64_0_1
      (broadcastInDim S1x64 ![1] bcast_S64_S1x64_1 (iotaInDim S64 32 0)) (ix2 j o))) : EReal) = _
  rw [e1, e2]
  exact uitofp_cmpi_eq (j.val / 16) o.val (by omega) (by omega)

/-- Its transpose at `(o, j)`: the same indicator. -/
theorem gtArr_apply (o : Fin 64) (j : Fin 1024) :
    gtArr (ix2 o j) = if j.val / 16 = o.val then (1 : EReal) else 0 := by
  have e1 : broadcastInDim S64x1024 ![0, 1] bcast_S64x1_S64x1024_0_1
      (broadcastInDim S64x1 ![0] bcast_S64_S64x1_0 (iotaInDim S64 32 0)) (ix2 o j) = BitVec.ofNat 32 o.val := by
    rw [← ij_eq_ix2, StableHlo.Predicate.bcast_rows]
    exact StableHlo.Predicate.iota_apply o
  have e2 : broadcastInDim S64x1024 ![0, 1] bcast_S1x1024_S64x1024_0_1
      (broadcastInDim S1x1024 ![1] bcast_S1024_S1x1024_1 fdArr) (ix2 o j) = BitVec.ofNat 32 (j.val / 16) := by
    rw [← ij_eq_ix2, StableHlo.Predicate.bcast_cols, ofFin_eq_ix1]
    exact fdArr_apply j
  show (FloatOps.uitofp (F := Ideal) .f32 (IntOp.cmpi .eq
    (broadcastInDim S64x1024 ![0, 1] bcast_S64x1_S64x1024_0_1
      (broadcastInDim S64x1 ![0] bcast_S64_S64x1_0 (iotaInDim S64 32 0)) (ix2 o j))
    (broadcastInDim S64x1024 ![0, 1] bcast_S1x1024_S64x1024_0_1
      (broadcastInDim S1x1024 ![1] bcast_S1024_S1x1024_1 fdArr) (ix2 o j))) : EReal) = _
  rw [e1, e2, uitofp_cmpi_eq o.val (j.val / 16) (by omega) (by omega)]
  exact if_congr eq_comm rfl rfl

/-- The region finds the weights as their row-major recast to `[1024, 8]`. -/
theorem v0_eq (c : Dev nD) :
    (V m c main_v0 : S1024x8.Idx → EReal)
      = shapeCast S1024x8 (m ((c.tc : Thread nD τ).loc main_arg1) : S64x16x8.Idx → EReal) shapeCasts_S64x16x8_S1024x8 := by
  dsimp only [Gen.V, Gen.V0]
  simp only [Gen.hostOps0, Gen.hostOps0_1, Gen.hostOps0_2, List.flatten_cons, List.flatten_nil, List.append_nil, List.cons_append, List.nil_append]
  after_results
  rfl

/-- The flattened weights as the region finds them: row `j`, column `k` is `w (j / 16) (j % 16) k`. -/
theorem wflat_apply (c : Dev nD) (j : Fin 1024) (k : Fin 8) :
    (V m c main_v0 : S1024x8.Idx → EReal) (ix2 j k)
      = (m ((c.tc : Thread nD τ).loc main_arg1) : S64x16x8.Idx → EReal) (ix3 (capOf j) (posOf j) k) := by
  rw [v0_eq]
  refine shapeCast_apply _ _ (ix2 j k) (ix3 (capOf j) (posOf j) k) ?_
  rw [Shape.rowMajor_val_three, Shape.rowMajor_val_two]
  show (j.val / 16 * 16 + j.val % 16) * 8 + k.val = j.val * 8 + k.val
  omega

/-- The grouping matrix `[1024, 64]` as the region finds it. -/
theorem g_apply (c : Dev nD) (j : Fin 1024) (o : Fin 64) :
    (V m c main_v9 : S1024x64.Idx → EReal) (ix2 j o) = if j.val / 16 = o.val then (1 : EReal) else 0 := by
  rw [v9_eq]
  exact gArr_apply j o

/-- Its transpose `[64, 1024]` as the region finds it. -/
theorem gt_apply (c : Dev nD) (o : Fin 64) (j : Fin 1024) :
    (V m c main_v15 : S64x1024.Idx → EReal) (ix2 o j) = if j.val / 16 = o.val then (1 : EReal) else 0 := by
  rw [v15_eq]
  exact gtArr_apply o j

end Cert.KernelIdeal.HostGlue

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«130596_j28552942584473_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«130596_j28552942584473_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«130596_j28552942584473_1_alg».proof.Proof.LibRowsDot
import proofs.«130596_j28552942584473_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.KernelOps.lean ====
/-
  The pieces one round of routing is spelt with in a vector program that keeps `(o, l)` flattened to `j = 16·o + l`,
  each read at an index at the ideal values.

  The program holds the priors as `P [1024, 1152]` (`P (j, n)`), a centroid as a column `c [1024, 1]`, and moves
  between flattened positions and capsules by products with the 0/1 matrices `g [1024, 64]` and `gt [64, 1024]`
  (`[j / 16 = o]`): `gt · v` sums `v` over a capsule's sixteen positions, `g · u` repeats `u o` over them.

  * `meanV`: the row sums of `P` over 1152, the first centroid;
  * `denomV`: `max (√(gt · (c ⊙ c)), ε)`, the normaliser of each capsule;
  * `logitsV`: `gt · (P ⊙ (c ⊙ (g · (1 / d))))`, the logits, where `d` is that normaliser: multiplying by the repeated
    reciprocal is dividing by the capsule's normaliser (`Cert.Routing.mul_one_div`);
  * `nextV`: the row sums of `(g · pr) ⊙ P`, the priors averaged with the couplings.
-/
import proofs.«130596_j28552942584473_1_alg».proof.Proof.Gen.KernelIdeal.Skeleton
import proofs.«130596_j28552942584473_1_alg».proof.Proof.Routing
import proofs.«130596_j28552942584473_1_alg».proof.Proof.LibDenseLayer
import proofs.«130596_j28552942584473_1_alg».proof.Proof.LibPlainDot
import proofs.«130596_j28552942584473_1_alg».proof.Proof.LibRowsDims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Gen Idealize.ShloMosaic Idealize.ShloMosaic.ValueIdx Cert.Routing

/-- A centroid column `[1024, 1]` seen by capsule and position. -/
def cenOf (c : FVec Ideal S1024x1 .f32) : Cen := fun o l => c (ix2 (flat o l) 0)
/-- The priors `[1024, 1152]` seen by capsule, input capsule and position. -/
def priOf (P : FVec Ideal S1024x1152 .f32) : Pri := fun o n l => P (ix2 (flat o l) n)

/-- `g` is the grouping matrix `[j / 16 = o]`, -/
def IsG (g : FVec Ideal S1024x64 .bf16) : Prop :=
  ∀ (j : Fin 1024) (o : Fin 64), g (ix2 j o) = if j.val / 16 = o.val then (1 : EReal) else 0
/-- and `gt` its transpose. -/
def IsGt (gt : FVec Ideal S64x1024 .bf16) : Prop :=
  ∀ (o : Fin 64) (j : Fin 1024), gt (ix2 o j) = if j.val / 16 = o.val then (1 : EReal) else 0

variable (g : FVec Ideal S1024x64 .bf16) (gt : FVec Ideal S64x1024 .bf16) (P : FVec Ideal S1024x1152 .f32)

/-- The first centroid as the program takes it: the row sums of the priors over 1152. -/
def meanV : FVec Ideal S1024x1 .f32 :=
  divf (shapeCast S1024x1 (multiReduction .add [1] S1024 P 0x00000000#32 reduces_S1024x1152_S1024 (.inl rfl) rfl) shapeCasts_S1024_S1024x1)
    (broadcast S1024x1 (Scalar.ofBits (F := Ideal) .f32 0x44900000#32))

theorem meanV_apply (o : Fin 64) (l : Fin 16) : meanV P (ix2 (flat o l) 0) = mean0 (priOf P) o l := by
  refine congrArg (fun t => Ideal.div t (Ideal.ofBits .f32 0x44900000#32)) ?_
  refine (Cert.ColumnLayout.shapeCast_a_a1_apply _ shapeCasts_S1024_S1024x1 (flat o l) 0).trans ?_
  exact Cert.ColumnLayout.multiReduction_add_rows_apply P _ reduces_S1024x1152_S1024 _ _ (flat o l)

/-- The normalisers as the program takes them. -/
def denomV (c : FVec Ideal S1024x1 .f32) : FVec Ideal S64x1 .f32 :=
  maximumf
    (sqrt (matmul dot_S64x1024_S1024x1_S64x1_1_0_0_1_n_n none gt (truncf .bf16 (mulf c c) bitsLt_bf16_f32)
      (constant S64x1 .f32 0x00000000#32)))
    (broadcast S64x1 (Scalar.ofBits (F := Ideal) .f32 0x2B8CBCCC#32))

theorem denomV_apply (hgt : IsGt gt) (c : FVec Ideal S1024x1 .f32) (o : Fin 64) :
    denomV gt c (ix2 o 0) = denom (cenOf c) o := by
  have hd : Cert.DenseLayer.PlainDot dot_S64x1024_S1024x1_S64x1_1_0_0_1_n_n :=
    Cert.DenseLayer.plainDot_of_axes _ rfl rfl rfl rfl rfl rfl
  refine congrArg (fun t => max (Ideal.sqrt t) (Ideal.ofBits .f32 0x2B8CBCCC#32)) ?_
  refine (Cert.DenseLayer.matmul_zero_apply hd none gt _ (ix2 o 0)).trans ?_
  show ∑ j : Fin 1024, gt (ix2 o j) * (c (ix2 j 0) * c (ix2 j 0)) = _
  rw [Finset.sum_congr rfl fun j _ => congrArg (· * (c (ix2 j 0) * c (ix2 j 0))) (hgt o j)]
  exact sum_group (fun j => c (ix2 j 0) * c (ix2 j 0)) o

/-- The logits as the program takes them, from a centroid `c` and the column `d` of normalisers. -/
def logitsV (c : FVec Ideal S1024x1 .f32) (d : FVec Ideal S64x1 .f32) : FVec Ideal S64x1152 .f32 :=
  matmul dot_S64x1024_S1024x1152_S64x1152_1_0_0_1_n_n none gt
    (truncf .bf16
      (mulf P
        (broadcastTo S1024x1152
          (mulf c
            (matmul dot_S1024x64_S64x1_S1024x1_1_0_0_1_n_n none g
              (truncf .bf16 (divf (broadcast S64x1 (Scalar.ofBits (F := Ideal) .f32 0x3F800000#32)) d) bitsLt_bf16_f32)
              (constant S1024x1 .f32 0x00000000#32)))
          broadcasts_S1024x1_S1024x1152))
      bitsLt_bf16_f32)
    (constant S64x1152 .f32 0x00000000#32)

theorem logitsV_apply (hg : IsG g) (hgt : IsGt gt) (c : FVec Ideal S1024x1 .f32) (d : FVec Ideal S64x1 .f32)
    (hd : ∀ o : Fin 64, d (ix2 o 0) = denom (cenOf c) o) (o : Fin 64) (n : Fin 1152) :
    logitsV g gt P c d (ix2 o n) = logit (priOf P) (cenOf c) o n := by
  have hd1 : Cert.DenseLayer.PlainDot dot_S64x1024_S1024x1152_S64x1152_1_0_0_1_n_n :=
    Cert.DenseLayer.plainDot_of_axes _ rfl rfl rfl rfl rfl rfl
  have hd2 : Cert.DenseLayer.PlainDot dot_S1024x64_S64x1_S1024x1_1_0_0_1_n_n :=
    Cert.DenseLayer.plainDot_of_axes _ rfl rfl rfl rfl rfl rfl
  -- the repeated reciprocal at a flattened position is the reciprocal of its capsule's normaliser
  have hM : ∀ j : Fin 1024,
      matmul dot_S1024x64_S64x1_S1024x1_1_0_0_1_n_n none g
          (truncf .bf16 (divf (broadcast S64x1 (Scalar.ofBits (F := Ideal) .f32 0x3F800000#32)) d) bitsLt_bf16_f32)
          (constant S1024x1 .f32 0x00000000#32) (ix2 j 0)
        = Ideal.div (Ideal.ofBits .f32 0x3F800000#32) (denom (cenOf c) (capOf j)) := fun j => by
    refine (Cert.DenseLayer.matmul_zero_apply hd2 none g _ (ix2 j 0)).trans ?_
    show ∑ o' : Fin 64, g (ix2 j o') * Ideal.div (Ideal.ofBits .f32 0x3F800000#32) (d (ix2 o' 0)) = _
    rw [Finset.sum_congr rfl fun o' _ => by rw [hg j o', hd o']]
    exact sum_pick (fun o' => Ideal.div (Ideal.ofBits .f32 0x3F800000#32) (denom (cenOf c) o')) j
  refine (Cert.DenseLayer.matmul_zero_apply hd1 none gt _ (ix2 o n)).trans ?_
  show ∑ j : Fin 1024, gt (ix2 o j) * (P (ix2 j n) *
      broadcastTo S1024x1152
        (mulf c
          (matmul dot_S1024x64_S64x1_S1024x1_1_0_0_1_n_n none g
            (truncf .bf16 (divf (broadcast S64x1 (Scalar.ofBits (F := Ideal) .f32 0x3F800000#32)) d) bitsLt_bf16_f32)
            (constant S1024x1 .f32 0x00000000#32)))
        broadcasts_S1024x1_S1024x1152 (ix2 j n)) = _
  have hB : ∀ j : Fin 1024,
      broadcastTo S1024x1152
        (mulf c
          (matmul dot_S1024x64_S64x1_S1024x1_1_0_0_1_n_n none g
            (truncf .bf16 (divf (broadcast S64x1 (Scalar.ofBits (F := Ideal) .f32 0x3F800000#32)) d) bitsLt_bf16_f32)
            (constant S1024x1 .f32 0x00000000#32)))
        broadcasts_S1024x1_S1024x1152 (ix2 j n)
        = Ideal.div (c (ix2 j 0)) (denom (cenOf c) (capOf j)) := fun j => by
    refine (Cert.ColumnLayout.broadcastTo_a1_ab_apply _ broadcasts_S1024x1_S1024x1152 j n).trans ?_
    show c (ix2 j 0) * _ = _
    rw [hM j]
    exact mul_one_div _ _ (denom_ne_zero _ _)
  rw [Finset.sum_congr rfl fun j _ => by rw [hgt o j, hB j]]
  refine (sum_group (fun j => P (ix2 j n) * Ideal.div (c (ix2 j 0)) (denom (cenOf c) (capOf j))) o).trans ?_
  refine Finset.sum_congr rfl fun l _ => ?_
  rw [capOf_flat]
  rfl

/-- The next centroid as the program takes it, from the couplings `pr [64, 1152]`. -/
def nextV (pr : FVec Ideal S64x1152 .f32) : FVec Ideal S1024x1 .f32 :=
  shapeCast S1024x1
    (multiReduction .add [1] S1024
      (mulf (matmul dot_S1024x64_S64x1152_S1024x1152_1_0_0_1_n_n none g (truncf .bf16 pr bitsLt_bf16_f32)
        (constant S1024x1152 .f32 0x00000000#32)) P)
      0x00000000#32 reduces_S1024x1152_S1024 (.inl rfl) rfl)
    shapeCasts_S1024_S1024x1

theorem nextV_apply (hg : IsG g) (pr : FVec Ideal S64x1152 .f32) (o : Fin 64) (l : Fin 16) :
    nextV g P pr (ix2 (flat o l) 0) = ∑ n : Fin 1152, pr (ix2 o n) * priOf P o n l := by
  have hd : Cert.DenseLayer.PlainDot dot_S1024x64_S64x1152_S1024x1152_1_0_0_1_n_n :=
    Cert.DenseLayer.plainDot_of_axes _ rfl rfl rfl rfl rfl rfl
  refine (Cert.ColumnLayout.shapeCast_a_a1_apply _ shapeCasts_S1024_S1024x1 (flat o l) 0).trans ?_
  refine (Cert.ColumnLayout.multiReduction_add_rows_apply _ _ reduces_S1024x1152_S1024 _ _ (flat o l)).trans ?_
  refine Finset.sum_congr rfl fun n _ => ?_
  refine congrArg (· * P (ix2 (flat o l) n)) ?_
  refine (Cert.DenseLayer.matmul_zero_apply hd none g _ (ix2 (flat o l) n)).trans ?_
  show ∑ o' : Fin 64, g (ix2 (flat o l) o') * pr (ix2 o' n) = _
  rw [Finset.sum_congr rfl fun o' _ => by rw [hg (flat o l) o']]
  refine (sum_pick (fun o' => pr (ix2 o' n)) (flat o l)).trans ?_
  rw [capOf_flat]

/-- The couplings as the program takes them: the row softmax of the logits `z [64, 1152]`, its maxima taken from `-∞`
    and once more against `-∞`. -/
def softV (z : FVec Ideal S64x1152 .f32) : FVec Ideal S64x1152 .f32 :=
  divf (exp (subf z (Cert.DenseLayer.vecTop z reduces_S64x1152_S64 shapeCasts_S64_S64x1 broadcasts_S64x1_S64x1152 (.inl rfl) rfl)))
    (broadcastTo S64x1152
      (shapeCast S64x1
        (multiReduction .add [1] S64
          (exp (subf z (Cert.DenseLayer.vecTop z reduces_S64x1152_S64 shapeCasts_S64_S64x1 broadcasts_S64x1_S64x1152 (.inl rfl) rfl)))
          0x00000000#32 reduces_S64x1152_S64 (.inl rfl) rfl)
        shapeCasts_S64_S64x1)
      broadcasts_S64x1_S64x1152)

theorem softV_apply (z : FVec Ideal S64x1152 .f32) (o : Fin 64) (n : Fin 1152) :
    softV z (ix2 o n) = Cert.DenseLayer.softmaxRow (fun k => z (ix2 o k)) n :=
  Cert.DenseLayer.vector_softmax_apply z reduces_S64x1152_S64 shapeCasts_S64_S64x1 broadcasts_S64x1_S64x1152 (.inl rfl) rfl rfl o n

/-- The priors as the program takes them from a block `x0 [1, 1152, 8]` of inputs and the flattened weights
    `x1 [1024, 8]`: the product of `x1` with the rows of `x0`. -/
theorem priors_apply (x0 : Vec Ideal S1x1152x8 .f32) (x1 : Vec Ideal S1024x8 .f32) (o : Fin 64) (n : Fin 1152) (l : Fin 16) :
    (k0_pay6 (F := Ideal) x0 x1 : S1024x1152.Idx → EReal) (ix2 (flat o l) n)
      = priors (fun n k => (x0 : S1x1152x8.Idx → EReal) (ix3 0 n k)) (fun o l k => (x1 : S1024x8.Idx → EReal) (ix2 (flat o l) k)) o n l := by
  have hd : Cert.DenseRows.RowsDot dot_S1024x8_S1152x8_S1024x1152_1_1_0_0_n_n :=
    Cert.DenseRows.rowsDot_of_axes _ rfl rfl rfl rfl rfl rfl
  unfold k0_pay6
  refine (Cert.DenseRows.matmul_zero_rows_apply hd none _ _ (ix2 (flat o l) n)).trans ?_
  show ∑ k : Fin 8, shapeCast S1024x8 x1 shapeCasts_S1024x8_S1024x8 (ix2 (flat o l) k)
      * shapeCast S1152x8 x0 shapeCasts_S1x1152x8_S1152x8 (ix2 n k) = _
  refine Finset.sum_congr rfl fun k _ => ?_
  rw [shapeCast_self]
  refine (mul_comm _ _).trans ?_
  refine congrArg (· * (x1 : S1024x8.Idx → EReal) (ix2 (flat o l) k)) ?_
  refine shapeCast_apply x0 shapeCasts_S1x1152x8_S1152x8 (ix2 n k) (ix3 0 n k) ?_
  rw [Shape.rowMajor_val_three, Shape.rowMajor_val_two]
  show ((0 : Fin 1).val * 1152 + n.val) * 8 + k.val = n.val * 8 + k.val
  simp

end Cert.KernelIdeal.Ops

end
-- ==== Proof.KernelPayload.lean ====
/-
  The kernel body's two stored values, read at an index, are three rounds of routing on the block's priors.

  The body keeps the pair `(o, l)` flattened to `j = 16·o + l`. With `g`, `gt` the two grouping matrices in the narrow
  format and `P` the priors `[1024, 1152]`, one ROUND takes a centroid column `c [1024, 1]` to
  `roundV c = nextV (softV (zV c))`, where `zV c` are the logits from `c` and its normalisers. Read by capsule and position
  this is `Cert.Routing.next` (`cenOf_roundV`), and the first centroid is `Cert.Routing.mean0` (`cenOf_meanV`).

  The body's values are cut in the middle of rounds; each piece is, by unfolding alone, the operations named above:
  the numerator of the first round's softmax from the first centroid (`pay7_eq`), from such a numerator the centroid after
  two rounds (`pay8_eq`) and its normalisers (`pay9_eq`), from a centroid and its normalisers the couplings of a round
  (`pay1_eq`), and the two stored values, the next centroid and those couplings with a leading unit axis added
  (`pay2_eq`, `pay3_eq`).
-/
import proofs.«130596_j28552942584473_1_alg».proof.Proof.Gen.KernelIdeal.Skeleton
import proofs.«130596_j28552942584473_1_alg».proof.Proof.Routing
import proofs.«130596_j28552942584473_1_alg».proof.Proof.LibDenseLayer
import proofs.«130596_j28552942584473_1_alg».proof.Proof.LibPlainDot
import proofs.«130596_j28552942584473_1_alg».proof.Proof.LibRowsDims
import proofs.«130596_j28552942584473_1_alg».proof.Proof.KernelOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Routing

/-! ## One round, as the body spells it, read by capsule and position -/

section Rounds

open Cert.KernelIdeal.Ops

variable (g : FVec Ideal S1024x64 .bf16) (gt : FVec Ideal S64x1024 .bf16) (P : FVec Ideal S1024x1152 .f32)

/-- The logits of a round from a centroid column: against the centroid divided by its own normalisers. -/
def zV (c : FVec Ideal S1024x1 .f32) : FVec Ideal S64x1152 .f32 := logitsV g gt P c (denomV gt c)

/-- One round on a centroid column: the priors averaged with the softmax of those logits. -/
def roundV (c : FVec Ideal S1024x1 .f32) : FVec Ideal S1024x1 .f32 := nextV g P (softV (zV g gt P c))

/-- The numerator of a row softmax: the entries minus the laid-out row maxima, exponentiated. -/
def expV (z : FVec Ideal S64x1152 .f32) : FVec Ideal S64x1152 .f32 :=
  exp (subf z (Cert.DenseLayer.vecTop z reduces_S64x1152_S64 shapeCasts_S64_S64x1 broadcasts_S64x1_S64x1152 (.inl rfl) rfl))

/-- Row `o` of the logits from `c` is the routing's logit row of capsule `o`. -/
theorem zV_row (hg : IsG g) (hgt : IsGt gt) (c : FVec Ideal S1024x1 .f32) (o : Fin 64) :
    (fun n : Fin 1152 => zV g gt P c (ix2 o n)) = logit (priOf P) (cenOf c) o :=
  funext fun n => logitsV_apply g gt P hg hgt c (denomV gt c) (fun o' => denomV_apply gt hgt c o') o n

/-- The couplings of a round from `c`, entry by entry. -/
theorem softV_zV_apply (hg : IsG g) (hgt : IsGt gt) (c : FVec Ideal S1024x1 .f32) (o : Fin 64) (n : Fin 1152) :
    softV (zV g gt P c) (ix2 o n) = prob (priOf P) (cenOf c) o n := by
  rw [softV_apply, zV_row g gt P hg hgt c o]
  rfl

/-- One round of the body is one round of routing. -/
theorem cenOf_roundV (hg : IsG g) (hgt : IsGt gt) (c : FVec Ideal S1024x1 .f32) :
    cenOf (roundV g gt P c) = next (priOf P) (cenOf c) :=
  funext fun o => funext fun l => by
    show nextV g P (softV (zV g gt P c)) (ix2 (flat o l) 0) = ∑ n : Fin 1152, prob (priOf P) (cenOf c) o n * priOf P o n l
    rw [nextV_apply g P hg]
    exact Finset.sum_congr rfl fun n _ => by rw [softV_zV_apply g gt P hg hgt c o n]

/-- The body's first centroid is the mean of the priors. -/
theorem cenOf_meanV : cenOf (meanV P) = mean0 (priOf P) :=
  funext fun o => funext fun l => meanV_apply P o l

/-! ## The body's values as those operations: by unfolding -/

/-- From the numerator of a round's softmax on the logits `z`: that round is finished, and one more round is run. -/
theorem pay8_eq (z : FVec Ideal S64x1152 .f32) :
    k0_pay8 (F := Ideal) g gt P (expV z) = roundV g gt P (nextV g P (softV z)) := rfl

/-- The normalisers of the centroid that value is. -/
theorem pay9_eq (e : FVec Ideal S64x1152 .f32) :
    k0_pay9 (F := Ideal) g gt P e = denomV gt (k0_pay8 (F := Ideal) g gt P e) := rfl

/-- The couplings of a round from a centroid `c` and a column `d` of normalisers. -/
theorem pay1_eq (c : FVec Ideal S1024x1 .f32) (d : FVec Ideal S64x1 .f32) :
    k0_pay1 (F := Ideal) g gt P c d = softV (logitsV g gt P c d) := rfl

/-- The first stored value: the next centroid from those couplings, with a leading unit axis. -/
theorem pay2_eq (c : FVec Ideal S1024x1 .f32) (d : FVec Ideal S64x1 .f32) :
    k0_pay2 (F := Ideal) g gt P c d
      = shapeCast S1x1024x1 (nextV g P (k0_pay1 (F := Ideal) g gt P c d)) shapeCasts_S1024x1_S1x1024x1 := rfl

/-- The second stored value: those couplings with a leading unit axis. -/
theorem pay3_eq (c : FVec Ideal S1024x1 .f32) (d : FVec Ideal S64x1 .f32) :
    k0_pay3 (F := Ideal) g gt P c d
      = shapeCast S1x64x1152 (k0_pay1 (F := Ideal) g gt P c d) shapeCasts_S64x1152_S1x64x1152 := rfl

/-- The first stored value from a centroid and its own normalisers, at flattened position `16·o + l`: one more round. -/
theorem pay2_apply (hg : IsG g) (hgt : IsGt gt) (c : FVec Ideal S1024x1 .f32) (o : Fin 64) (l : Fin 16) :
    k0_pay2 (F := Ideal) g gt P c (denomV gt c) (ix3 0 (flat o l) 0) = next (priOf P) (cenOf c) o l := by
  rw [pay2_eq, pay1_eq, shapeCast_ab_1ab_apply]
  exact congrFun (congrFun (cenOf_roundV g gt P hg hgt c) o) l

/-- The second stored value from a centroid and its own normalisers: the couplings of the round from it. -/
theorem pay3_apply (hg : IsG g) (hgt : IsGt gt) (c : FVec Ideal S1024x1 .f32) (o : Fin 64) (n : Fin 1152) :
    k0_pay3 (F := Ideal) g gt P c (denomV gt c) (ix3 0 o n) = prob (priOf P) (cenOf c) o n := by
  rw [pay3_eq, pay1_eq, shapeCast_ab_1ab_apply]
  exact softV_zV_apply g gt P hg hgt c o n

end Rounds

variable (x0 : Vec Ideal S1x1152x8 .f32) (x1 : Vec Ideal S1024x8 .f32) (x2 : Vec Ideal S1024x64 .f32) (x3 : Vec Ideal S64x1024 .f32)

/-- The priors of the block: the batch element's capsules against the flattened weights' rows. -/
def blockPriors : Pri :=
  priors (fun n k => (x0 : S1x1152x8.Idx → EReal) (ix3 0 n k)) (fun o l k => (x1 : S1024x8.Idx → EReal) (ix2 (flat o l) k))

/-! ## The block's own matrices and priors -/

section Block

open Cert.KernelIdeal.Ops

/-- The first grouping matrix in the narrow format has the entries it was loaded with. -/
theorem isG_pay4
    (hg : ∀ (j : Fin 1024) (o : Fin 64), (x2 : S1024x64.Idx → EReal) (ix2 j o) = if j.val / 16 = o.val then 1 else 0) :
    IsG (k0_pay4 (F := Ideal) x2) := fun j o => by
  show shapeCast S1024x64 (x2 : S1024x64.Idx → EReal) shapeCasts_S1024x64_S1024x64 (ix2 j o) = _
  rw [shapeCast_self]
  exact hg j o

/-- So has the second. -/
theorem isGt_pay5
    (hgt : ∀ (o : Fin 64) (j : Fin 1024), (x3 : S64x1024.Idx → EReal) (ix2 o j) = if j.val / 16 = o.val then 1 else 0) :
    IsGt (k0_pay5 (F := Ideal) x3) := fun o j => by
  show shapeCast S64x1024 (x3 : S64x1024.Idx → EReal) shapeCasts_S64x1024_S64x1024 (ix2 o j) = _
  rw [shapeCast_self]
  exact hgt o j

/-- The body's priors, read by capsule, input capsule and position, are the block's priors. -/
theorem priOf_pay6 : priOf (k0_pay6 (F := Ideal) x0 x1) = blockPriors x0 x1 :=
  funext fun o => funext fun n => funext fun l => priors_apply x0 x1 o n l

/-- The numerator the first part of the body ends on is that of the first round's softmax, from the first centroid. -/
theorem pay7_eq :
    k0_pay7 (F := Ideal) x0 x1 x2 x3
      = expV (zV (k0_pay4 (F := Ideal) x2) (k0_pay5 (F := Ideal) x3) (k0_pay6 (F := Ideal) x0 x1) (meanV (k0_pay6 (F := Ideal) x0 x1))) := rfl

/-- The centroid the second part of the body ends on: two rounds from the first centroid. -/
theorem pay8_block :
    k0_pay8 (F := Ideal) (k0_pay4 x2) (k0_pay5 x3) (k0_pay6 x0 x1) (k0_pay7 x0 x1 x2 x3)
      = roundV (k0_pay4 (F := Ideal) x2) (k0_pay5 (F := Ideal) x3) (k0_pay6 (F := Ideal) x0 x1)
          (roundV (k0_pay4 (F := Ideal) x2) (k0_pay5 (F := Ideal) x3) (k0_pay6 (F := Ideal) x0 x1) (meanV (k0_pay6 (F := Ideal) x0 x1))) :=
  (congrArg (k0_pay8 (F := Ideal) (k0_pay4 x2) (k0_pay5 x3) (k0_pay6 x0 x1)) (pay7_eq x0 x1 x2 x3)).trans (pay8_eq _ _ _ _)

/-- Read by capsule and position it is the routing's centroid after two rounds. -/
theorem cenOf_pay8_block
    (hg : ∀ (j : Fin 1024) (o : Fin 64), (x2 : S1024x64.Idx → EReal) (ix2 j o) = if j.val / 16 = o.val then 1 else 0)
    (hgt : ∀ (o : Fin 64) (j : Fin 1024), (x3 : S64x1024.Idx → EReal) (ix2 o j) = if j.val / 16 = o.val then 1 else 0) :
    cenOf (k0_pay8 (F := Ideal) (k0_pay4 x2) (k0_pay5 x3) (k0_pay6 x0 x1) (k0_pay7 x0 x1 x2 x3)) = cen2 (blockPriors x0 x1) := by
  rw [pay8_block, cenOf_roundV _ _ _ (isG_pay4 x2 hg) (isGt_pay5 x3 hgt), cenOf_roundV _ _ _ (isG_pay4 x2 hg) (isGt_pay5 x3 hgt),
    cenOf_meanV, priOf_pay6]
  rfl

end Block

/-- The first stored value, `[1, 1024, 1]`: at flattened position `16·o + l` the third centroid. -/
theorem out_apply
    (hg : ∀ (j : Fin 1024) (o : Fin 64), (x2 : S1024x64.Idx → EReal) (ix2 j o) = if j.val / 16 = o.val then 1 else 0)
    (hgt : ∀ (o : Fin 64) (j : Fin 1024), (x3 : S64x1024.Idx → EReal) (ix2 o j) = if j.val / 16 = o.val then 1 else 0)
    (o : Fin 64) (l : Fin 16) :
    (k0_pay2 (F := Ideal) (k0_pay4 x2) (k0_pay5 x3) (k0_pay6 x0 x1)
        (k0_pay8 (k0_pay4 x2) (k0_pay5 x3) (k0_pay6 x0 x1) (k0_pay7 x0 x1 x2 x3))
        (k0_pay9 (k0_pay4 x2) (k0_pay5 x3) (k0_pay6 x0 x1) (k0_pay7 x0 x1 x2 x3)) : S1x1024x1.Idx → EReal)
        (ix3 0 (flat o l) 0)
      = cen3 (blockPriors x0 x1) o l := by
  rw [pay9_eq, pay2_apply _ _ _ (isG_pay4 x2 hg) (isGt_pay5 x3 hgt), cenOf_pay8_block x0 x1 x2 x3 hg hgt, priOf_pay6]
  rfl

/-- The second stored value, `[1, 64, 1152]`: the third round's couplings. -/
theorem probs_apply
    (hg : ∀ (j : Fin 1024) (o : Fin 64), (x2 : S1024x64.Idx → EReal) (ix2 j o) = if j.val / 16 = o.val then 1 else 0)
    (hgt : ∀ (o : Fin 64) (j : Fin 1024), (x3 : S64x1024.Idx → EReal) (ix2 o j) = if j.val / 16 = o.val then 1 else 0)
    (o : Fin 64) (n : Fin 1152) :
    (k0_pay3 (F := Ideal) (k0_pay4 x2) (k0_pay5 x3) (k0_pay6 x0 x1)
        (k0_pay8 (k0_pay4 x2) (k0_pay5 x3) (k0_pay6 x0 x1) (k0_pay7 x0 x1 x2 x3))
        (k0_pay9 (k0_pay4 x2) (k0_pay5 x3) (k0_pay6 x0 x1) (k0_pay7 x0 x1 x2 x3)) : S1x64x1152.Idx → EReal)
        (ix3 0 o n)
      = prob3 (blockPriors x0 x1) o n := by
  rw [pay9_eq, pay3_apply _ _ _ (isG_pay4 x2 hg) (isGt_pay5 x3 hgt), cenOf_pay8_block x0 x1 x2 x3 hg hgt, priOf_pay6]
  rfl

end Cert.KernelIdeal.Payload

end
-- ==== Proof.KernelValue.lean ====
/-
  The kernel program's two results after its run, as whole arrays: grid point `b` works on batch element `b`, stores
  the third centroid as a column `[1, 1024, 1]` and the third round's couplings `[1, 64, 1152]`; the blocks tile the
  two output arrays along the batch axis, and the host line after the region reshapes the centroids `[64, 1024, 1]` to
  `[64, 64, 16]`, flattened position `16·o + l` becoming `(o, l)`.
-/
import proofs.«130596_j28552942584473_1_alg».proof.Proof.Gen.KernelIdeal.Frame
import proofs.«130596_j28552942584473_1_alg».proof.Proof.Routing
import proofs.«130596_j28552942584473_1_alg».proof.Proof.KernelHost
import proofs.«130596_j28552942584473_1_alg».proof.Proof.KernelPayload
import Idealize.ShloMosaic.Lib.ValueIdx
import Idealize.ShloMosaic.Lib.Pipeline.Value
import Idealize.ShloMosaic.Lib.StableHlo.Run

noncomputable section

namespace Cert.KernelIdeal.Routed

open Cert.KernelIdeal Cert.KernelIdeal.Gen Idealize.ShloMosaic Idealize.ShloMosaic.TcCoe Idealize.ShloMosaic.ValueIdx
open Idealize.SL.Sem Cert.Routing

/-- The zero offsets of a whole rank-3 block, -/
theorem hz3 : (![0, 0, 0] : Fin 3 → Nat) = fun _ => 0 := funext fun a => by fin_cases a <;> rfl
/-- and of a whole rank-2 block. -/
theorem hz2 : (![0, 0] : Fin 2 → Nat) = fun _ => 0 := funext fun a => by fin_cases a <;> rfl

/-- The windows' block indices at every grid point: windows 0, 4 and 5 are at block `t` of the batch axis, windows 1, 2
    and 3 at block 0 of every axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

section Blocks

variable (m : (ℓ : Loc nD τ sig) → Buf (Elt Ideal) ℓ)

/-- Window 0's block at point `t` is batch element `t` of the first argument. -/
theorem blk0_apply (c : Dev nD) (t : Fin cfg0.N) (b : Fin 64) (hb : b.val = t.val) (n : Fin 1152) (k : Fin 8) :
    (iblk m c 0 t : S1x1152x8.Idx → EReal) (ix3 0 n k)
      = (m ((c.tc : Thread nD τ).loc main_arg0) : S64x1152x8.Idx → EReal) (ix3 b n k) := by
  obtain ⟨e0, e1, e2, -⟩ := idx_facts t
  rw [← V_main_arg0 m c]
  show V m c main_arg0 (((cfg0.win 0).blk t).view.emb (ix3 0 n k)) = V m c main_arg0 (ix3 b n k)
  congr 1
  funext a; apply Fin.ext
  match a with
  | ⟨0, _⟩ => show win0_0.index t (0 : Fin 3) * 1 + 1 * 0 = b.val; omega
  | ⟨1, _⟩ => show win0_0.index t (1 : Fin 3) * 1152 + 1 * n.val = n.val; omega
  | ⟨2, _⟩ => show win0_0.index t (2 : Fin 3) * 8 + 1 * k.val = k.val; omega

/-- Window 1's block at any point is the whole array of flattened weights. -/
theorem blk1_apply (c : Dev nD) (t : Fin cfg0.N) (j : Fin 1024) (k : Fin 8) :
    (iblk m c 1 t : S1024x8.Idx → EReal) (ix2 j k) = (V m c main_v0 : S1024x8.Idx → EReal) (ix2 j k) := by
  obtain ⟨-, -, -, e0, e1, -⟩ := idx_facts t
  show V m c main_v0 (((cfg0.win 1).blk t).view.emb (ix2 j k)) = V m c main_v0 (ix2 j k)
  congr 1
  funext a; apply Fin.ext
  match a with
  | ⟨0, _⟩ => show win0_1.index t (0 : Fin 2) * 1024 + 1 * j.val = j.val; omega
  | ⟨1, _⟩ => show win0_1.index t (1 : Fin 2) * 8 + 1 * k.val = k.val; omega

/-- Window 2's block at any point is the whole grouping matrix. -/
theorem blk2_apply (c : Dev nD) (t : Fin cfg0.N) (j : Fin 1024) (o : Fin 64) :
    (iblk m c 2 t : S1024x64.Idx → EReal) (ix2 j o) = (V m c main_v9 : S1024x64.Idx → EReal) (ix2 j o) := by
  obtain ⟨-, -, -, -, -, e0, e1, -⟩ := idx_facts t
  show V m c main_v9 (((cfg0.win 2).blk t).view.emb (ix2 j o)) = V m c main_v9 (ix2 j o)
  congr 1
  funext a; apply Fin.ext
  match a with
  | ⟨0, _⟩ => show win0_2.index t (0 : Fin 2) * 1024 + 1 * j.val = j.val; omega
  | ⟨1, _⟩ => show win0_2.index t (1 : Fin 2) * 64 + 1 * o.val = o.val; omega

/-- Window 3's block at any point is the whole transposed grouping matrix. -/
theorem blk3_apply (c : Dev nD) (t : Fin cfg0.N) (o : Fin 64) (j : Fin 1024) :
    (iblk m c 3 t : S64x1024.Idx → EReal) (ix2 o j) = (V m c main_v15 : S64x1024.Idx → EReal) (ix2 o j) := by
  obtain ⟨-, -, -, -, -, -, -, e0, e1, -⟩ := idx_facts t
  show V m c main_v15 (((cfg0.win 3).blk t).view.emb (ix2 o j)) = V m c main_v15 (ix2 o j)
  congr 1
  funext a; apply Fin.ext
  match a with
  | ⟨0, _⟩ => show win0_3.index t (0 : Fin 2) * 64 + 1 * o.val = o.val; omega
  | ⟨1, _⟩ => show win0_3.index t (1 : Fin 2) * 1024 + 1 * j.val = j.val; omega

/-- The priors of the blocks at point `t` are the priors of batch element `t` of the argument arrays. -/
theorem blockPriors_eq (c : Dev nD) (t : Fin cfg0.N) (b : Fin 64) (hb : b.val = t.val) :
    Payload.blockPriors (iblk m c 0 t) (iblk m c 1 t)
      = priors (fun n k => (m ((c.tc : Thread nD τ).loc main_arg0) : S64x1152x8.Idx → EReal) (ix3 b n k))
          (fun o l k => (m ((c.tc : Thread nD τ).loc main_arg1) : S64x16x8.Idx → EReal) (ix3 o l k)) := by
  unfold Payload.blockPriors
  congr 1
  · funext n k; exact blk0_apply m c t b hb n k
  · funext o l k
    refine (blk1_apply m c t (flat o l) k).trans ((HostGlue.wflat_apply m c (flat o l) k).trans ?_)
    rw [capOf_flat, posOf_flat]

/-- The grouping hypotheses of the payload lemmas, at the blocks of point `t`. -/
theorem hg_blk (c : Dev nD) (t : Fin cfg0.N) (j : Fin 1024) (o : Fin 64) :
    (iblk m c 2 t : S1024x64.Idx → EReal) (ix2 j o) = if j.val / 16 = o.val then (1 : EReal) else 0 :=
  (blk2_apply m c t j o).trans (HostGlue.g_apply m c j o)
/-- The same for the transposed matrix. -/
theorem hgt_blk (c : Dev nD) (t : Fin cfg0.N) (o : Fin 64) (j : Fin 1024) :
    (iblk m c 3 t : S64x1024.Idx → EReal) (ix2 o j) = if j.val / 16 = o.val then (1 : EReal) else 0 :=
  (blk3_apply m c t o j).trans (HostGlue.gt_apply m c o j)

section Payload

variable (x0 : Vec Ideal S1x1152x8 .f32) (x1 : Vec Ideal S1024x8 .f32) (x2 : Vec Ideal S1024x64 .f32) (x3 : Vec Ideal S64x1024 .f32)

/-- The first stored value at any index of `[1, 1024, 1]`: the third centroid at the capsule and position of the
    flattened coordinate. -/
theorem pay_out_apply
    (hg : ∀ (j : Fin 1024) (o : Fin 64), (x2 : S1024x64.Idx → EReal) (ix2 j o) = if j.val / 16 = o.val then 1 else 0)
    (hgt : ∀ (o : Fin 64) (j : Fin 1024), (x3 : S64x1024.Idx → EReal) (ix2 o j) = if j.val / 16 = o.val then 1 else 0)
    (y : S1x1024x1.Idx) (j : Fin 1024) (hj : (y 1).val = j.val) :
    (k0_pay2 (F := Ideal) (k0_pay4 x2) (k0_pay5 x3) (k0_pay6 x0 x1)
        (k0_pay8 (k0_pay4 x2) (k0_pay5 x3) (k0_pay6 x0 x1) (k0_pay7 x0 x1 x2 x3))
        (k0_pay9 (k0_pay4 x2) (k0_pay5 x3) (k0_pay6 x0 x1) (k0_pay7 x0 x1 x2 x3)) : S1x1024x1.Idx → EReal) y
      = cen3 (Payload.blockPriors x0 x1) (capOf j) (posOf j) := by
  have hy : y = ix3 0 (flat (capOf j) (posOf j)) 0 := by
    rw [flat_capOf_posOf]
    funext a
    match a with
    | ⟨0, _⟩ => exact Fin.ext (by show (y 0).val = 0; have h : (y 0).val < 1 := (y 0).isLt; omega)
    | ⟨1, _⟩ => exact Fin.ext hj
    | ⟨2, _⟩ => exact Fin.ext (by show (y 2).val = 0; have h : (y 2).val < 1 := (y 2).isLt; omega)
  exact (congrArg _ hy).trans (Payload.out_apply x0 x1 x2 x3 hg hgt (capOf j) (posOf j))

/-- The second stored value at any index of `[1, 64, 1152]`: the third round's couplings. -/
theorem pay_probs_apply
    (hg : ∀ (j : Fin 1024) (o : Fin 64), (x2 : S1024x64.Idx → EReal) (ix2 j o) = if j.val / 16 = o.val then 1 else 0)
    (hgt : ∀ (o : Fin 64) (j : Fin 1024), (x3 : S64x1024.Idx → EReal) (ix2 o j) = if j.val / 16 = o.val then 1 else 0)
    (y : S1x64x1152.Idx) (o : Fin 64) (n : Fin 1152) (ho : (y 1).val = o.val) (hn : (y 2).val = n.val) :
    (k0_pay3 (F := Ideal) (k0_pay4 x2) (k0_pay5 x3) (k0_pay6 x0 x1)
        (k0_pay8 (k0_pay4 x2) (k0_pay5 x3) (k0_pay6 x0 x1) (k0_pay7 x0 x1 x2 x3))
        (k0_pay9 (k0_pay4 x2) (k0_pay5 x3) (k0_pay6 x0 x1) (k0_pay7 x0 x1 x2 x3)) : S1x64x1152.Idx → EReal) y
      = prob3 (Payload.blockPriors x0 x1) o n := by
  have hy : y = ix3 0 o n := by
    funext a
    match a with
    | ⟨0, _⟩ => exact Fin.ext (by show (y 0).val = 0; have h : (y 0).val < 1 := (y 0).isLt; omega)
    | ⟨1, _⟩ => exact Fin.ext ho
    | ⟨2, _⟩ => exact Fin.ext hn
  exact (congrArg _ hy).trans (Payload.probs_apply x0 x1 x2 x3 hg hgt o n)

end Payload

/-- The centroids' array as the kernel stores it, `[64, 1024, 1]`: at `(b, j, 0)` the third centroid of batch element
    `b` at the capsule and position of the flattened coordinate `j`. -/
def cenArr (x : S64x1152x8.Idx → EReal) (w : S64x16x8.Idx → EReal) : S64x1024x1.Idx → EReal :=
  fun i => cen3 (priors (fun n k => x (ix3 (i 0) n k)) (fun o l k => w (ix3 o l k))) (capOf (i 1)) (posOf (i 1))

/-- `cenArr` at an index of given coordinates. -/
theorem cenArr_apply (x : S64x1152x8.Idx → EReal) (w : S64x16x8.Idx → EReal) (i : S64x1024x1.Idx) (b : Fin 64) (j : Fin 1024)
    (hb : (i 0).val = b.val) (hj : (i 1).val = j.val) :
    cenArr x w i = cen3 (priors (fun n k => x (ix3 b n k)) (fun o l k => w (ix3 o l k))) (capOf j) (posOf j) := by
  have e0 : i 0 = b := Fin.ext hb
  have e1 : i 1 = j := Fin.ext hj
  unfold cenArr; rw [e0, e1]

/-- The couplings' array at an index of given coordinates. -/
theorem probArr_apply (x : S64x1152x8.Idx → EReal) (w : S64x16x8.Idx → EReal) (i : S64x64x1152.Idx) (b : Fin 64) (o : Fin 64)
    (n : Fin 1152) (hb : (i 0).val = b.val) (ho : (i 1).val = o.val) (hn : (i 2).val = n.val) :
    probArr x w i = prob3 (priors (fun n k => x (ix3 b n k)) (fun o l k => w (ix3 o l k))) o n := by
  have e0 : i 0 = b := Fin.ext hb
  have e1 : i 1 = o := Fin.ext ho
  have e2 : i 2 = n := Fin.ext hn
  unfold probArr; rw [e0, e1, e2]

/-- The reshaped centroids' array at an index of given coordinates. -/
theorem outArr_apply (x : S64x1152x8.Idx → EReal) (w : S64x16x8.Idx → EReal) (i : S64x64x16.Idx) (b : Fin 64) (o : Fin 64)
    (l : Fin 16) (hb : (i 0).val = b.val) (ho : (i 1).val = o.val) (hl : (i 2).val = l.val) :
    outArr x w i = cen3 (priors (fun n k => x (ix3 b n k)) (fun o l k => w (ix3 o l k))) o l := by
  have e0 : i 0 = b := Fin.ext hb
  have e1 : i 1 = o := Fin.ext ho
  have e2 : i 2 = l := Fin.ext hl
  unfold outArr; rw [e0, e1, e2]

/-- The grid has 64 points. -/
theorem lt_of_point (t : Fin cfg0.N) : t.val < 64 :=
  lt_of_lt_of_eq t.isLt (show cfg0.N = 64 from N_0)

/-- What point `t` writes back to the centroids' array is block `t` of `cenArr` of the arguments. -/
theorem flushed4_eq (c : Dev nD) (t : Fin cfg0.N) :
    (dats m 0 c).flushed 4 t = ((cfg0.win 4).blk t).view.read (Elt Ideal)
      (cenArr (m ((c.tc : Thread nD τ).loc main_arg0)) (m ((c.tc : Thread nD τ).loc main_arg1))) := by
  show (cfg0.win 4).cut (grid0.coords t) ((dats m 0 c).after 4 t) = _
  rw [after0_4]
  unfold out0_4
  rw [View.canon_unit_zero hz3]
  simp only [View.ld_unit_zero (S := S1x1152x8) hz3, View.ld_unit_zero (S := S1024x8) hz2,
    View.ld_unit_zero (S := S1024x64) hz2, View.ld_unit_zero (S := S64x1024) hz2]
  have ht : t.val < 64 := lt_of_point t
  obtain ⟨-, -, -, -, -, -, -, -, -, e0, e1, e2, -⟩ := idx_facts t
  funext y
  have hy0 : (y 0).val < 1 := (y 0).isLt
  have hy1 : (y 1).val < 1024 := (y 1).isLt
  refine (pay_out_apply (iblk m c 0 t) (iblk m c 1 t) (iblk m c 2 t) (iblk m c 3 t) (hg_blk m c t) (hgt_blk m c t) y
    ⟨(y 1).val, hy1⟩ rfl).trans ?_
  rw [blockPriors_eq m c t ⟨t.val, ht⟩ rfl]
  refine (cenArr_apply _ _ (((cfg0.win 4).blk t).view.emb y) ⟨t.val, ht⟩ ⟨(y 1).val, hy1⟩ ?_ ?_).symm
  · show win0_4.index t (0 : Fin 3) * 1 + 1 * (y 0).val = t.val; omega
  · show win0_4.index t (1 : Fin 3) * 1024 + 1 * (y 1).val = (y 1).val; omega

/-- What point `t` writes back to the couplings' array is block `t` of `probArr` of the arguments. -/
theorem flushed5_eq (c : Dev nD) (t : Fin cfg0.N) :
    (dats m 0 c).flushed 5 t = ((cfg0.win 5).blk t).view.read (Elt Ideal)
      (probArr (m ((c.tc : Thread nD τ).loc main_arg0)) (m ((c.tc : Thread nD τ).loc main_arg1))) := by
  show (cfg0.win 5).cut (grid0.coords t) ((dats m 0 c).after 5 t) = _
  rw [after0_5]
  unfold out0_5
  rw [View.canon_unit_zero hz3]
  simp only [View.ld_unit_zero (S := S1x1152x8) hz3, View.ld_unit_zero (S := S1024x8) hz2,
    View.ld_unit_zero (S := S1024x64) hz2, View.ld_unit_zero (S := S64x1024) hz2]
  have ht : t.val < 64 := lt_of_point t
  obtain ⟨-, -, -, -, -, -, -, -, -, -, -, -, e0, e1, e2⟩ := idx_facts t
  funext y
  have hy0 : (y 0).val < 1 := (y 0).isLt
  have hy1 : (y 1).val < 64 := (y 1).isLt
  have hy2 : (y 2).val < 1152 := (y 2).isLt
  refine (pay_probs_apply (iblk m c 0 t) (iblk m c 1 t) (iblk m c 2 t) (iblk m c 3 t) (hg_blk m c t) (hgt_blk m c t) y
    ⟨(y 1).val, hy1⟩ ⟨(y 2).val, hy2⟩ rfl rfl).trans ?_
  rw [blockPriors_eq m c t ⟨t.val, ht⟩ rfl]
  refine (probArr_apply _ _ (((cfg0.win 5).blk t).view.emb y) ⟨t.val, ht⟩ ⟨(y 1).val, hy1⟩ ⟨(y 2).val, hy2⟩ ?_ ?_ ?_).symm
  · show win0_5.index t (0 : Fin 3) * 1 + 1 * (y 0).val = t.val; omega
  · show win0_5.index t (1 : Fin 3) * 64 + 1 * (y 1).val = (y 1).val; omega
  · show win0_5.index t (2 : Fin 3) * 1152 + 1 * (y 2).val = (y 2).val; omega

/-- An index of the centroids' array is in point `t`'s block iff each coordinate is in the block's range on its axis. -/
theorem mem_blk4 (t : Fin cfg0.N) (i : S64x1024x1.Idx) :
    i ∈ ((cfg0.win 4).blk t).view.set ↔ ∀ a : Fin 3, win0_4.index t a * S1x1024x1.size a ≤ (i a).val
      ∧ (i a).val < win0_4.index t a * S1x1024x1.size a + S1x1024x1.size a := by
  show i ∈ ((View.whole main_v16_0).slice (win0_4.rect t)).set ↔ _
  rw [View.set_slice_whole, Rect.mem_set_unit]
  exact Iff.rfl

/-- The same for the couplings' array. -/
theorem mem_blk5 (t : Fin cfg0.N) (i : S64x64x1152.Idx) :
    i ∈ ((cfg0.win 5).blk t).view.set ↔ ∀ a : Fin 3, win0_5.index t a * S1x64x1152.size a ≤ (i a).val
      ∧ (i a).val < win0_5.index t a * S1x64x1152.size a + S1x64x1152.size a := by
  show i ∈ ((View.whole main_v16_1).slice (win0_5.rect t)).set ↔ _
  rw [View.set_slice_whole, Rect.mem_set_unit]
  exact Iff.rfl

/-- Every index of the centroids' array is in the block of the point of its batch coordinate. -/
theorem cover4 (i : S64x1024x1.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1 := (i 2).isLt
  obtain ⟨t, ht⟩ : ∃ t : Fin cfg0.N, t.val = (i 0).val := ⟨⟨(i 0).val, lt_of_lt_of_eq hi0 (show 64 = cfg0.N from N_0.symm)⟩, rfl⟩
  obtain ⟨-, -, -, -, -, -, -, -, -, e0, e1, e2, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1 ≤ (i 2).val ∧ (i 2).val < win0_4.index t (2 : Fin 3) * 1 + 1; omega

/-- Every index of the couplings' array is in the block of the point of its batch coordinate. -/
theorem cover5 (i : S64x64x1152.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 1152 := (i 2).isLt
  obtain ⟨t, ht⟩ : ∃ t : Fin cfg0.N, t.val = (i 0).val := ⟨⟨(i 0).val, lt_of_lt_of_eq hi0 (show 64 = cfg0.N from N_0.symm)⟩, rfl⟩
  obtain ⟨-, -, -, -, -, -, -, -, -, -, -, -, e0, e1, e2⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1152 ≤ (i 2).val ∧ (i 2).val < win0_5.index t (2 : Fin 3) * 1152 + 1152; omega

/-- The centroids' array after the region: `cenArr` of the arguments. -/
theorem final4 (c : Dev nD) : (dats m 0 c).arrAt 4 cfg0.N
    = cenArr (m ((c.tc : Thread nD τ).loc main_arg0)) (m ((c.tc : Thread nD τ).loc main_arg1)) :=
  (dats m 0 c).arrAt_eq_of_cover 4 (cenArr (m ((c.tc : Thread nD τ).loc main_arg0)) (m ((c.tc : Thread nD τ).loc main_arg1)))
    (fun t _ => flushed4_eq m c t) cover4

/-- The couplings' array after the region: `probArr` of the arguments. -/
theorem final5 (c : Dev nD) : (dats m 0 c).arrAt 5 cfg0.N
    = probArr (m ((c.tc : Thread nD τ).loc main_arg0)) (m ((c.tc : Thread nD τ).loc main_arg1)) :=
  (dats m 0 c).arrAt_eq_of_cover 5 (probArr (m ((c.tc : Thread nD τ).loc main_arg0)) (m ((c.tc : Thread nD τ).loc main_arg1)))
    (fun t _ => flushed5_eq m c t) cover5

/-- `[64, 1024, 1]` cast to `[64, 64, 16]` reads, at `(b, o, l)`, the operand at `(b, 16·o + l, 0)`. -/
theorem reshape_apply {α : Type} (x : S64x1024x1.Idx → α) (h : S64x1024x1.ShapeCasts S64x64x16) (b : Fin 64) (o : Fin 64)
    (l : Fin 16) : shapeCast S64x64x16 x h (ix3 b o l) = x (ix3 b (flat o l) 0) :=
  shapeCast_apply x h _ _ (by
    rw [Shape.rowMajor_val_three, Shape.rowMajor_val_three]
    show (b.val * 1024 + (o.val * 16 + l.val)) * 1 + 0 = (b.val * 64 + o.val) * 16 + l.val
    omega)

/-- The reshaped centroids are the first result. -/
theorem reshape_cenArr (x : S64x1152x8.Idx → EReal) (w : S64x16x8.Idx → EReal) (h : S64x1024x1.ShapeCasts S64x64x16) :
    shapeCast S64x64x16 (cenArr x w) h = outArr x w := by
  funext i
  obtain ⟨b, o, l, rfl⟩ : ∃ (b : Fin 64) (o : Fin 64) (l : Fin 16), i = ix3 b o l := ⟨i 0, i 1, i 2, eq_ix3 i⟩
  rw [reshape_apply]
  refine (cenArr_apply x w _ b (flat o l) rfl rfl).trans ?_
  rw [capOf_flat, posOf_flat]
  exact (outArr_apply x w _ b o l rfl rfl rfl).symm

/-- The host line after the region leaves the reshaped centroids in the first result's buffer. -/
theorem tail_v17 (c : Dev nD) :
    Pipeline.afterTail₀ cfgs (dats m) 0 (V0 m) [hostOps1] c main_v17
      = outArr (m ((c.tc : Thread nD τ).loc main_arg0)) (m ((c.tc : Thread nD τ).loc main_arg1)) := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16_0)
      = cenArr (m ((c.tc : Thread nD τ).loc main_arg0)) (m ((c.tc : Thread nD τ).loc main_arg1)) :=
    (Pipeline.withArrays_arr spec0 launch0.win.arr_inj c _ _ 4).trans (final4 m c)
  rw [e]
  exact reshape_cenArr _ _ _

end Blocks

/-- Every weakly fair execution of the kernel program at the ideal values ends with the reshaped centroids and the
    couplings at three rounds of routing on the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17)
          = outArr (m ((c.tc : Thread nD τ).loc main_arg0)) (m ((c.tc : Thread nD τ).loc main_arg1))
      ∧ r.2.mem ((c.tc : Thread nD τ).loc main_v16_1)
          = probArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v17 (Pipeline.mem_restRefs_of main_v17 (by decide) (by decide))).trans (tail_v17 m c),
      ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Routed

end
-- ==== Proof.RefRounds.lean ====
/-
  One round of routing as the reference program spells it on `[64, 64, 1152, 16]` tensors, read at an index, for each of
  its three rounds: from the centroid stage `[64, 64, 1, 16]` of the round before, the couplings `[64, 64, 1152, 1]` and
  the next centroid.
-/
import proofs.«130596_j28552942584473_1_alg».proof.Proof.RefRead
import proofs.«130596_j28552942584473_1_alg».proof.Proof.Routing
import proofs.«130596_j28552942584473_1_alg».proof.Proof.LibDenseLayer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.StageRead Idealize.ShloMosaic Idealize.ShloMosaic.ValueIdx Cert.Routing

variable (x : (⟨S64x1152x8, .f32⟩ : BufTy).Contents (Elt Ideal)) (w : (⟨S64x16x8, .f32⟩ : BufTy).Contents (Elt Ideal))

/-- The priors of batch element `b`. -/
def batchPriors (b : Fin 64) : Pri :=
  priors (fun n k => (x : S64x1152x8.Idx → EReal) (ix3 b n k)) (fun o l k => (w : S64x16x8.Idx → EReal) (ix3 o l k))

/-- Two rank-3 index functions agree when they agree on each axis. -/
local macro "idx3" : tactic =>
  `(tactic| (funext a; match a with | ⟨0, _⟩ => rfl | ⟨1, _⟩ => rfl | ⟨2, _⟩ => rfl))
/-- Two rank-4 index functions agree when they agree on each axis. -/
local macro "idx4" : tactic =>
  `(tactic| (funext a; match a with | ⟨0, _⟩ => rfl | ⟨1, _⟩ => rfl | ⟨2, _⟩ => rfl | ⟨3, _⟩ => rfl))

namespace Rounds

/-! ## Index functions at coordinates, and a maximum over the third axis read at an index -/

/-- Inserting the coordinate `k` on the third axis of `[p, q, m, 1]` over `(i, j, z)` gives `(i, j, k, z)`. -/
theorem lift_axis2 {p q m : ℕ} (h : (⟨4, ![p, q, m, 1]⟩ : Shape).Reduces [2] ⟨3, ![p, q, 1]⟩) (i : Fin p) (j : Fin q)
    (z : Fin 1) (k : Fin m) : h.lift (ix3 i j z) k = ix4 i j k z :=
  funext fun ax => Fin.ext (by
    match ax with
    | ⟨0, _⟩ => rfl
    | ⟨1, _⟩ => rfl
    | ⟨2, _⟩ => rfl
    | ⟨3, _⟩ => rfl)

/-- A host program's maximum over the third axis of `[p, q, m, 1]`, at `(i, j, z)` at the ideal values: the fold of
    `max` from the initial value over the `m` entries `(i, j, ·, z)`. -/
theorem hostReduce_max_axis2_apply {p q m : ℕ} {φ : FTy} {u : Shape} (y : FVec Ideal ⟨4, ![p, q, m, 1]⟩ φ)
    (init : u.Idx → Ideal φ) (h' : (⟨4, ![p, q, m, 1]⟩ : Shape).ReducesTo [2] ⟨3, ![p, q, 1]⟩)
    (h : (⟨4, ![p, q, m, 1]⟩ : Shape).Reduces [2] ⟨3, ![p, q, 1]⟩) (hu : 0 < u.numel) (i : Fin p) (j : Fin q) (z : Fin 1) :
    Host.reduce (FloatOps.maximumf (F := Ideal) (φ := φ)) y init h' hu (ix3 i j z)
      = (Finset.univ : Finset (Fin m)).fold max (init (Shape.Idx.first hu)) (fun k => y (ix4 i j k z)) :=
  (Host.reduce_eq_fold_single (FloatOps.maximumf (F := Ideal) (φ := φ)) y init h' h hu (ix3 i j z)).trans
    (congrArg (fun f : Fin m → EReal => (Finset.univ : Finset (Fin m)).fold max (init (Shape.Idx.first hu)) f)
      (funext fun k => congrArg y (lift_axis2 h i j z k)))

/-! ## Round one, stage by stage -/

section Round1

theorem r1_idx_n2 (b o : Fin 64) (z z' : Fin 1) : idx_main_call0_v2 (ix4 b o z z') = ix3 b o 0 := by idx3
theorem r1_idx_n1 (b o : Fin 64) (z : Fin 1) (k : Fin 16) : idx_main_call0_v1 (ix3 b o z) k = ix4 b o z k := by idx4
theorem r1_idx_9 (b o : Fin 64) (z : Fin 1) (l : Fin 16) : idx_main_v9 (ix4 b o z l) = ix4 b o 0 0 := by idx4
theorem r1_idx_11 (b o : Fin 64) (n : Fin 1152) (l : Fin 16) : idx_main_v11 (ix4 b o n l) = ix4 b o 0 l := by idx4
theorem r1_idx_13 (b o : Fin 64) (n : Fin 1152) (k : Fin 16) : idx_main_v13 (ix3 b o n) k = ix4 b o n k := by idx4
theorem r1_idx_14 (b o : Fin 64) (n : Fin 1152) (z : Fin 1) : idx_main_v14 (ix4 b o n z) = ix3 b o n := by idx3
theorem r1_idx_18 (b o : Fin 64) (z z' : Fin 1) : idx_main_v18 (ix4 b o z z') = ix3 b o 0 := by idx3
theorem r1_idx_19 (b o : Fin 64) (n : Fin 1152) (z : Fin 1) : idx_main_v19 (ix4 b o n z) = ix4 b o 0 0 := by idx4
theorem r1_idx_22 (b o : Fin 64) (z : Fin 1) (k : Fin 1152) : idx_main_v22 (ix3 b o z) k = ix4 b o k z := by idx4
theorem r1_idx_23 (b o : Fin 64) (z z' : Fin 1) : idx_main_v23 (ix4 b o z z') = ix3 b o 0 := by idx3
theorem r1_idx_24 (b o : Fin 64) (n : Fin 1152) (z : Fin 1) : idx_main_v24 (ix4 b o n z) = ix4 b o 0 0 := by idx4
theorem r1_idx_26 (b o : Fin 64) (n : Fin 1152) (l : Fin 16) : idx_main_v26 (ix4 b o n l) = ix4 b o n 0 := by idx4
theorem r1_idx_28 (b o : Fin 64) (l : Fin 16) (k : Fin 1152) : idx_main_v28 (ix3 b o l) k = ix4 b o k l := by idx4
theorem r1_idx_29 (b o : Fin 64) (z : Fin 1) (l : Fin 16) : idx_main_v29 (ix4 b o z l) = ix3 b o l := by idx3

variable (b : Fin 64) (c : Cen)
  (hP : ∀ (o : Fin 64) (n : Fin 1152) (l : Fin 16), (val_main_v1 (F := Ideal) x w : S64x64x1152x16.Idx → EReal) (ix4 b o n l) = batchPriors x w b o n l)
  (hc : ∀ (o : Fin 64) (l : Fin 16), (val_main_v5 (F := Ideal) x w : S64x64x1x16.Idx → EReal) (ix4 b o 0 l) = c o l)

include hc

/-- The normaliser stage: the norm of the centroid, kept at least `ε`. -/
theorem r1_v8 (o : Fin 64) : (val_main_v8 (F := Ideal) x w : S64x64x1x1.Idx → EReal) (ix4 b o 0 0) = denom c o := by
  rw [val_main_v8_apply, val_main_v6_apply, val_main_v7_apply, val_main_cst_1_apply, val_main_call0_v2_apply,
    r1_idx_n2, val_main_call0_v1_apply, val_main_call0_cst_apply]
  simp only [Ideal.maximumf_def, Ideal.hostUnary_sqrt_def, Ideal.ofBits_def, Ideal.ofBits_zero_f32, zero_add]
  unfold denom
  refine congrArg (fun s => max (Ideal.sqrt s) _) (Finset.sum_congr rfl fun k _ => ?_)
  rw [r1_idx_n1, val_main_call0_v0_apply, hc]
  rfl

/-- The normalised centroid. -/
theorem r1_v10 (o : Fin 64) (l : Fin 16) :
    (val_main_v10 (F := Ideal) x w : S64x64x1x16.Idx → EReal) (ix4 b o 0 l) = Ideal.div (c o l) (denom c o) := by
  rw [val_main_v10_apply, val_main_v9_apply, r1_idx_9, r1_v8 x w b c hc, hc]
  rfl

include hP

/-- The logits. -/
theorem r1_v14 (o : Fin 64) (n : Fin 1152) :
    (val_main_v14 (F := Ideal) x w : S64x64x1152x1.Idx → EReal) (ix4 b o n 0) = logit (batchPriors x w b) c o n := by
  rw [val_main_v14_apply, r1_idx_14, val_main_v13_apply, val_main_cst_2_apply]
  simp only [Ideal.ofBits_def, Ideal.ofBits_zero_f32, zero_add]
  unfold logit
  refine Finset.sum_congr rfl fun k _ => ?_
  rw [r1_idx_13, val_main_v12_apply, val_main_v11_apply, r1_idx_11, r1_v10 x w b c hc, hP]
  rfl

/-- The maximum of the logits of one output capsule. -/
theorem r1_v17 (o : Fin 64) :
    (val_main_v17 (F := Ideal) x w : S64x64x1.Idx → EReal) (ix3 b o 0) = Cert.DenseLayer.rowTop (logit (batchPriors x w b) c o) := by
  rw [val_main_v17_apply, val_main_v16_apply, val_main_cst_4_apply]
  unfold val_main_v15
  rw [hostReduce_max_axis2_apply _ _ reducesTo_S64x64x1152x1_S64x64x1_d2 (by decide) h_S_ b o 0, val_main_cst_3_apply]
  simp only [Ideal.maximumf_def, Ideal.ofBits_def]
  unfold Cert.DenseLayer.rowTop
  exact congrArg (fun f : Fin 1152 → EReal => max (Ideal.ofBits .f32 0xFF800000#32) ((Finset.univ : Finset (Fin 1152)).fold max (Ideal.ofBits .f32 0xFF800000#32) f))
    (funext fun k => r1_v14 x w b c hP hc o k)

/-- The exponentials of the logits less their maximum. -/
theorem r1_v21 (o : Fin 64) (n : Fin 1152) :
    (val_main_v21 (F := Ideal) x w : S64x64x1152x1.Idx → EReal) (ix4 b o n 0)
      = Ideal.exp (logit (batchPriors x w b) c o n - Cert.DenseLayer.rowTop (logit (batchPriors x w b) c o)) := by
  rw [val_main_v21_apply, val_main_v20_apply, val_main_v19_apply, r1_idx_19, val_main_v18_apply, r1_idx_18,
    r1_v17 x w b c hP hc, r1_v14 x w b c hP hc]
  rfl

/-- Their sum along the input capsules. -/
theorem r1_v22 (o : Fin 64) :
    (val_main_v22 (F := Ideal) x w : S64x64x1.Idx → EReal) (ix3 b o 0)
      = ∑ j : Fin 1152, Ideal.exp (logit (batchPriors x w b) c o j - Cert.DenseLayer.rowTop (logit (batchPriors x w b) c o)) := by
  rw [val_main_v22_apply, val_main_cst_5_apply]
  simp only [Ideal.ofBits_def, Ideal.ofBits_zero_f32, zero_add]
  refine Finset.sum_congr rfl fun k _ => ?_
  rw [r1_idx_22, r1_v21 x w b c hP hc]

/-- The couplings. -/
theorem r1_v25 (o : Fin 64) (n : Fin 1152) :
    (val_main_v25 (F := Ideal) x w : S64x64x1152x1.Idx → EReal) (ix4 b o n 0) = prob (batchPriors x w b) c o n := by
  rw [val_main_v25_apply, val_main_v24_apply, r1_idx_24, val_main_v23_apply, r1_idx_23, r1_v22 x w b c hP hc,
    r1_v21 x w b c hP hc]
  rfl

/-- The next centroid. -/
theorem r1_v29 (o : Fin 64) (l : Fin 16) :
    (val_main_v29 (F := Ideal) x w : S64x64x1x16.Idx → EReal) (ix4 b o 0 l) = next (batchPriors x w b) c o l := by
  rw [val_main_v29_apply, r1_idx_29, val_main_v28_apply, val_main_cst_6_apply]
  simp only [Ideal.ofBits_def, Ideal.ofBits_zero_f32, zero_add]
  unfold next
  refine Finset.sum_congr rfl fun k _ => ?_
  rw [r1_idx_28, val_main_v27_apply, val_main_v26_apply, r1_idx_26, r1_v25 x w b c hP hc, hP]
  rfl

end Round1

end Rounds

/-- Round one: from the first centroid stage. -/
theorem round1 (b : Fin 64) (c : Cen)
    (hP : ∀ (o : Fin 64) (n : Fin 1152) (l : Fin 16), (val_main_v1 (F := Ideal) x w : S64x64x1152x16.Idx → EReal) (ix4 b o n l) = batchPriors x w b o n l)
    (hc : ∀ (o : Fin 64) (l : Fin 16), (val_main_v5 (F := Ideal) x w : S64x64x1x16.Idx → EReal) (ix4 b o 0 l) = c o l) :
    (∀ (o : Fin 64) (n : Fin 1152), (val_main_v25 (F := Ideal) x w : S64x64x1152x1.Idx → EReal) (ix4 b o n 0) = prob (batchPriors x w b) c o n)
    ∧ (∀ (o : Fin 64) (l : Fin 16), (val_main_v29 (F := Ideal) x w : S64x64x1x16.Idx → EReal) (ix4 b o 0 l) = next (batchPriors x w b) c o l) := by
  exact ⟨fun o n => Rounds.r1_v25 x w b c hP hc o n, fun o l => Rounds.r1_v29 x w b c hP hc o l⟩

namespace Rounds

/-! ## Round two, stage by stage -/

section Round2

theorem r2_idx_n2 (b o : Fin 64) (z z' : Fin 1) : idx_main_call1_v2 (ix4 b o z z') = ix3 b o 0 := by idx3
theorem r2_idx_n1 (b o : Fin 64) (z : Fin 1) (k : Fin 16) : idx_main_call1_v1 (ix3 b o z) k = ix4 b o z k := by idx4
theorem r2_idx_33 (b o : Fin 64) (z : Fin 1) (l : Fin 16) : idx_main_v33 (ix4 b o z l) = ix4 b o 0 0 := by idx4
theorem r2_idx_35 (b o : Fin 64) (n : Fin 1152) (l : Fin 16) : idx_main_v35 (ix4 b o n l) = ix4 b o 0 l := by idx4
theorem r2_idx_37 (b o : Fin 64) (n : Fin 1152) (k : Fin 16) : idx_main_v37 (ix3 b o n) k = ix4 b o n k := by idx4
theorem r2_idx_38 (b o : Fin 64) (n : Fin 1152) (z : Fin 1) : idx_main_v38 (ix4 b o n z) = ix3 b o n := by idx3
theorem r2_idx_42 (b o : Fin 64) (z z' : Fin 1) : idx_main_v42 (ix4 b o z z') = ix3 b o 0 := by idx3
theorem r2_idx_43 (b o : Fin 64) (n : Fin 1152) (z : Fin 1) : idx_main_v43 (ix4 b o n z) = ix4 b o 0 0 := by idx4
theorem r2_idx_46 (b o : Fin 64) (z : Fin 1) (k : Fin 1152) : idx_main_v46 (ix3 b o z) k = ix4 b o k z := by idx4
theorem r2_idx_47 (b o : Fin 64) (z z' : Fin 1) : idx_main_v47 (ix4 b o z z') = ix3 b o 0 := by idx3
theorem r2_idx_48 (b o : Fin 64) (n : Fin 1152) (z : Fin 1) : idx_main_v48 (ix4 b o n z) = ix4 b o 0 0 := by idx4
theorem r2_idx_50 (b o : Fin 64) (n : Fin 1152) (l : Fin 16) : idx_main_v50 (ix4 b o n l) = ix4 b o n 0 := by idx4
theorem r2_idx_52 (b o : Fin 64) (l : Fin 16) (k : Fin 1152) : idx_main_v52 (ix3 b o l) k = ix4 b o k l := by idx4
theorem r2_idx_53 (b o : Fin 64) (z : Fin 1) (l : Fin 16) : idx_main_v53 (ix4 b o z l) = ix3 b o l := by idx3

variable (b : Fin 64) (c : Cen)
  (hP : ∀ (o : Fin 64) (n : Fin 1152) (l : Fin 16), (val_main_v1 (F := Ideal) x w : S64x64x1152x16.Idx → EReal) (ix4 b o n l) = batchPriors x w b o n l)
  (hc : ∀ (o : Fin 64) (l : Fin 16), (val_main_v29 (F := Ideal) x w : S64x64x1x16.Idx → EReal) (ix4 b o 0 l) = c o l)

include hc

/-- The normaliser stage: the norm of the centroid, kept at least `ε`. -/
theorem r2_v32 (o : Fin 64) : (val_main_v32 (F := Ideal) x w : S64x64x1x1.Idx → EReal) (ix4 b o 0 0) = denom c o := by
  rw [val_main_v32_apply, val_main_v30_apply, val_main_v31_apply, val_main_cst_7_apply, val_main_call1_v2_apply,
    r2_idx_n2, val_main_call1_v1_apply, val_main_call1_cst_apply]
  simp only [Ideal.maximumf_def, Ideal.hostUnary_sqrt_def, Ideal.ofBits_def, Ideal.ofBits_zero_f32, zero_add]
  unfold denom
  refine congrArg (fun s => max (Ideal.sqrt s) _) (Finset.sum_congr rfl fun k _ => ?_)
  rw [r2_idx_n1, val_main_call1_v0_apply, hc]
  rfl

/-- The normalised centroid. -/
theorem r2_v34 (o : Fin 64) (l : Fin 16) :
    (val_main_v34 (F := Ideal) x w : S64x64x1x16.Idx → EReal) (ix4 b o 0 l) = Ideal.div (c o l) (denom c o) := by
  rw [val_main_v34_apply, val_main_v33_apply, r2_idx_33, r2_v32 x w b c hc, hc]
  rfl

include hP

/-- The logits. -/
theorem r2_v38 (o : Fin 64) (n : Fin 1152) :
    (val_main_v38 (F := Ideal) x w : S64x64x1152x1.Idx → EReal) (ix4 b o n 0) = logit (batchPriors x w b) c o n := by
  rw [val_main_v38_apply, r2_idx_38, val_main_v37_apply, val_main_cst_8_apply]
  simp only [Ideal.ofBits_def, Ideal.ofBits_zero_f32, zero_add]
  unfold logit
  refine Finset.sum_congr rfl fun k _ => ?_
  rw [r2_idx_37, val_main_v36_apply, val_main_v35_apply, r2_idx_35, r2_v34 x w b c hc, hP]
  rfl

/-- The maximum of the logits of one output capsule. -/
theorem r2_v41 (o : Fin 64) :
    (val_main_v41 (F := Ideal) x w : S64x64x1.Idx → EReal) (ix3 b o 0) = Cert.DenseLayer.rowTop (logit (batchPriors x w b) c o) := by
  rw [val_main_v41_apply, val_main_v40_apply, val_main_cst_10_apply]
  unfold val_main_v39
  rw [hostReduce_max_axis2_apply _ _ reducesTo_S64x64x1152x1_S64x64x1_d2 (by decide) h_S_ b o 0, val_main_cst_9_apply]
  simp only [Ideal.maximumf_def, Ideal.ofBits_def]
  unfold Cert.DenseLayer.rowTop
  exact congrArg (fun f : Fin 1152 → EReal => max (Ideal.ofBits .f32 0xFF800000#32) ((Finset.univ : Finset (Fin 1152)).fold max (Ideal.ofBits .f32 0xFF800000#32) f))
    (funext fun k => r2_v38 x w b c hP hc o k)

/-- The exponentials of the logits less their maximum. -/
theorem r2_v45 (o : Fin 64) (n : Fin 1152) :
    (val_main_v45 (F := Ideal) x w : S64x64x1152x1.Idx → EReal) (ix4 b o n 0)
      = Ideal.exp (logit (batchPriors x w b) c o n - Cert.DenseLayer.rowTop (logit (batchPriors x w b) c o)) := by
  rw [val_main_v45_apply, val_main_v44_apply, val_main_v43_apply, r2_idx_43, val_main_v42_apply, r2_idx_42,
    r2_v41 x w b c hP hc, r2_v38 x w b c hP hc]
  rfl

/-- Their sum along the input capsules. -/
theorem r2_v46 (o : Fin 64) :
    (val_main_v46 (F := Ideal) x w : S64x64x1.Idx → EReal) (ix3 b o 0)
      = ∑ j : Fin 1152, Ideal.exp (logit (batchPriors x w b) c o j - Cert.DenseLayer.rowTop (logit (batchPriors x w b) c o)) := by
  rw [val_main_v46_apply, val_main_cst_11_apply]
  simp only [Ideal.ofBits_def, Ideal.ofBits_zero_f32, zero_add]
  refine Finset.sum_congr rfl fun k _ => ?_
  rw [r2_idx_46, r2_v45 x w b c hP hc]

/-- The couplings. -/
theorem r2_v49 (o : Fin 64) (n : Fin 1152) :
    (val_main_v49 (F := Ideal) x w : S64x64x1152x1.Idx → EReal) (ix4 b o n 0) = prob (batchPriors x w b) c o n := by
  rw [val_main_v49_apply, val_main_v48_apply, r2_idx_48, val_main_v47_apply, r2_idx_47, r2_v46 x w b c hP hc,
    r2_v45 x w b c hP hc]
  rfl

/-- The next centroid. -/
theorem r2_v53 (o : Fin 64) (l : Fin 16) :
    (val_main_v53 (F := Ideal) x w : S64x64x1x16.Idx → EReal) (ix4 b o 0 l) = next (batchPriors x w b) c o l := by
  rw [val_main_v53_apply, r2_idx_53, val_main_v52_apply, val_main_cst_12_apply]
  simp only [Ideal.ofBits_def, Ideal.ofBits_zero_f32, zero_add]
  unfold next
  refine Finset.sum_congr rfl fun k _ => ?_
  rw [r2_idx_52, val_main_v51_apply, val_main_v50_apply, r2_idx_50, r2_v49 x w b c hP hc, hP]
  rfl

end Round2

end Rounds

/-- Round two. -/
theorem round2 (b : Fin 64) (c : Cen)
    (hP : ∀ (o : Fin 64) (n : Fin 1152) (l : Fin 16), (val_main_v1 (F := Ideal) x w : S64x64x1152x16.Idx → EReal) (ix4 b o n l) = batchPriors x w b o n l)
    (hc : ∀ (o : Fin 64) (l : Fin 16), (val_main_v29 (F := Ideal) x w : S64x64x1x16.Idx → EReal) (ix4 b o 0 l) = c o l) :
    (∀ (o : Fin 64) (n : Fin 1152), (val_main_v49 (F := Ideal) x w : S64x64x1152x1.Idx → EReal) (ix4 b o n 0) = prob (batchPriors x w b) c o n)
    ∧ (∀ (o : Fin 64) (l : Fin 16), (val_main_v53 (F := Ideal) x w : S64x64x1x16.Idx → EReal) (ix4 b o 0 l) = next (batchPriors x w b) c o l) := by
  exact ⟨fun o n => Rounds.r2_v49 x w b c hP hc o n, fun o l => Rounds.r2_v53 x w b c hP hc o l⟩

namespace Rounds

/-! ## Round three, stage by stage -/

section Round3

theorem r3_idx_n2 (b o : Fin 64) (z z' : Fin 1) : idx_main_call2_v2 (ix4 b o z z') = ix3 b o 0 := by idx3
theorem r3_idx_n1 (b o : Fin 64) (z : Fin 1) (k : Fin 16) : idx_main_call2_v1 (ix3 b o z) k = ix4 b o z k := by idx4
theorem r3_idx_57 (b o : Fin 64) (z : Fin 1) (l : Fin 16) : idx_main_v57 (ix4 b o z l) = ix4 b o 0 0 := by idx4
theorem r3_idx_59 (b o : Fin 64) (n : Fin 1152) (l : Fin 16) : idx_main_v59 (ix4 b o n l) = ix4 b o 0 l := by idx4
theorem r3_idx_61 (b o : Fin 64) (n : Fin 1152) (k : Fin 16) : idx_main_v61 (ix3 b o n) k = ix4 b o n k := by idx4
theorem r3_idx_62 (b o : Fin 64) (n : Fin 1152) (z : Fin 1) : idx_main_v62 (ix4 b o n z) = ix3 b o n := by idx3
theorem r3_idx_66 (b o : Fin 64) (z z' : Fin 1) : idx_main_v66 (ix4 b o z z') = ix3 b o 0 := by idx3
theorem r3_idx_67 (b o : Fin 64) (n : Fin 1152) (z : Fin 1) : idx_main_v67 (ix4 b o n z) = ix4 b o 0 0 := by idx4
theorem r3_idx_70 (b o : Fin 64) (z : Fin 1) (k : Fin 1152) : idx_main_v70 (ix3 b o z) k = ix4 b o k z := by idx4
theorem r3_idx_71 (b o : Fin 64) (z z' : Fin 1) : idx_main_v71 (ix4 b o z z') = ix3 b o 0 := by idx3
theorem r3_idx_72 (b o : Fin 64) (n : Fin 1152) (z : Fin 1) : idx_main_v72 (ix4 b o n z) = ix4 b o 0 0 := by idx4
theorem r3_idx_74 (b o : Fin 64) (n : Fin 1152) (l : Fin 16) : idx_main_v74 (ix4 b o n l) = ix4 b o n 0 := by idx4
theorem r3_idx_76 (b o : Fin 64) (l : Fin 16) (k : Fin 1152) : idx_main_v76 (ix3 b o l) k = ix4 b o k l := by idx4
theorem r3_idx_77 (b o : Fin 64) (z : Fin 1) (l : Fin 16) : idx_main_v77 (ix4 b o z l) = ix3 b o l := by idx3

variable (b : Fin 64) (c : Cen)
  (hP : ∀ (o : Fin 64) (n : Fin 1152) (l : Fin 16), (val_main_v1 (F := Ideal) x w : S64x64x1152x16.Idx → EReal) (ix4 b o n l) = batchPriors x w b o n l)
  (hc : ∀ (o : Fin 64) (l : Fin 16), (val_main_v53 (F := Ideal) x w : S64x64x1x16.Idx → EReal) (ix4 b o 0 l) = c o l)

include hc

/-- The normaliser stage: the norm of the centroid, kept at least `ε`. -/
theorem r3_v56 (o : Fin 64) : (val_main_v56 (F := Ideal) x w : S64x64x1x1.Idx → EReal) (ix4 b o 0 0) = denom c o := by
  rw [val_main_v56_apply, val_main_v54_apply, val_main_v55_apply, val_main_cst_13_apply, val_main_call2_v2_apply,
    r3_idx_n2, val_main_call2_v1_apply, val_main_call2_cst_apply]
  simp only [Ideal.maximumf_def, Ideal.hostUnary_sqrt_def, Ideal.ofBits_def, Ideal.ofBits_zero_f32, zero_add]
  unfold denom
  refine congrArg (fun s => max (Ideal.sqrt s) _) (Finset.sum_congr rfl fun k _ => ?_)
  rw [r3_idx_n1, val_main_call2_v0_apply, hc]
  rfl

/-- The normalised centroid. -/
theorem r3_v58 (o : Fin 64) (l : Fin 16) :
    (val_main_v58 (F := Ideal) x w : S64x64x1x16.Idx → EReal) (ix4 b o 0 l) = Ideal.div (c o l) (denom c o) := by
  rw [val_main_v58_apply, val_main_v57_apply, r3_idx_57, r3_v56 x w b c hc, hc]
  rfl

include hP

/-- The logits. -/
theorem r3_v62 (o : Fin 64) (n : Fin 1152) :
    (val_main_v62 (F := Ideal) x w : S64x64x1152x1.Idx → EReal) (ix4 b o n 0) = logit (batchPriors x w b) c o n := by
  rw [val_main_v62_apply, r3_idx_62, val_main_v61_apply, val_main_cst_14_apply]
  simp only [Ideal.ofBits_def, Ideal.ofBits_zero_f32, zero_add]
  unfold logit
  refine Finset.sum_congr rfl fun k _ => ?_
  rw [r3_idx_61, val_main_v60_apply, val_main_v59_apply, r3_idx_59, r3_v58 x w b c hc, hP]
  rfl

/-- The maximum of the logits of one output capsule. -/
theorem r3_v65 (o : Fin 64) :
    (val_main_v65 (F := Ideal) x w : S64x64x1.Idx → EReal) (ix3 b o 0) = Cert.DenseLayer.rowTop (logit (batchPriors x w b) c o) := by
  rw [val_main_v65_apply, val_main_v64_apply, val_main_cst_16_apply]
  unfold val_main_v63
  rw [hostReduce_max_axis2_apply _ _ reducesTo_S64x64x1152x1_S64x64x1_d2 (by decide) h_S_ b o 0, val_main_cst_15_apply]
  simp only [Ideal.maximumf_def, Ideal.ofBits_def]
  unfold Cert.DenseLayer.rowTop
  exact congrArg (fun f : Fin 1152 → EReal => max (Ideal.ofBits .f32 0xFF800000#32) ((Finset.univ : Finset (Fin 1152)).fold max (Ideal.ofBits .f32 0xFF800000#32) f))
    (funext fun k => r3_v62 x w b c hP hc o k)

/-- The exponentials of the logits less their maximum. -/
theorem r3_v69 (o : Fin 64) (n : Fin 1152) :
    (val_main_v69 (F := Ideal) x w : S64x64x1152x1.Idx → EReal) (ix4 b o n 0)
      = Ideal.exp (logit (batchPriors x w b) c o n - Cert.DenseLayer.rowTop (logit (batchPriors x w b) c o)) := by
  rw [val_main_v69_apply, val_main_v68_apply, val_main_v67_apply, r3_idx_67, val_main_v66_apply, r3_idx_66,
    r3_v65 x w b c hP hc, r3_v62 x w b c hP hc]
  rfl

/-- Their sum along the input capsules. -/
theorem r3_v70 (o : Fin 64) :
    (val_main_v70 (F := Ideal) x w : S64x64x1.Idx → EReal) (ix3 b o 0)
      = ∑ j : Fin 1152, Ideal.exp (logit (batchPriors x w b) c o j - Cert.DenseLayer.rowTop (logit (batchPriors x w b) c o)) := by
  rw [val_main_v70_apply, val_main_cst_17_apply]
  simp only [Ideal.ofBits_def, Ideal.ofBits_zero_f32, zero_add]
  refine Finset.sum_congr rfl fun k _ => ?_
  rw [r3_idx_70, r3_v69 x w b c hP hc]

/-- The couplings. -/
theorem r3_v73 (o : Fin 64) (n : Fin 1152) :
    (val_main_v73 (F := Ideal) x w : S64x64x1152x1.Idx → EReal) (ix4 b o n 0) = prob (batchPriors x w b) c o n := by
  rw [val_main_v73_apply, val_main_v72_apply, r3_idx_72, val_main_v71_apply, r3_idx_71, r3_v70 x w b c hP hc,
    r3_v69 x w b c hP hc]
  rfl

/-- The next centroid. -/
theorem r3_v77 (o : Fin 64) (l : Fin 16) :
    (val_main_v77 (F := Ideal) x w : S64x64x1x16.Idx → EReal) (ix4 b o 0 l) = next (batchPriors x w b) c o l := by
  rw [val_main_v77_apply, r3_idx_77, val_main_v76_apply, val_main_cst_18_apply]
  simp only [Ideal.ofBits_def, Ideal.ofBits_zero_f32, zero_add]
  unfold next
  refine Finset.sum_congr rfl fun k _ => ?_
  rw [r3_idx_76, val_main_v75_apply, val_main_v74_apply, r3_idx_74, r3_v73 x w b c hP hc, hP]
  rfl

end Round3

end Rounds

/-- Round three. -/
theorem round3 (b : Fin 64) (c : Cen)
    (hP : ∀ (o : Fin 64) (n : Fin 1152) (l : Fin 16), (val_main_v1 (F := Ideal) x w : S64x64x1152x16.Idx → EReal) (ix4 b o n l) = batchPriors x w b o n l)
    (hc : ∀ (o : Fin 64) (l : Fin 16), (val_main_v53 (F := Ideal) x w : S64x64x1x16.Idx → EReal) (ix4 b o 0 l) = c o l) :
    (∀ (o : Fin 64) (n : Fin 1152), (val_main_v73 (F := Ideal) x w : S64x64x1152x1.Idx → EReal) (ix4 b o n 0) = prob (batchPriors x w b) c o n)
    ∧ (∀ (o : Fin 64) (l : Fin 16), (val_main_v77 (F := Ideal) x w : S64x64x1x16.Idx → EReal) (ix4 b o 0 l) = next (batchPriors x w b) c o l) := by
  exact ⟨fun o n => Rounds.r3_v73 x w b c hP hc o n, fun o l => Rounds.r3_v77 x w b c hP hc o l⟩

end Cert.ReferenceIdeal.RefValue

end
-- ==== Proof.RefValue.lean ====
/-
  The reference program's two results are three rounds of routing on the argument arrays: its priors (a
  `dot_general` and a transpose) and first centroid read at an index, the three rounds, and the two closing reshapes.
-/
import proofs.«130596_j28552942584473_1_alg».proof.Proof.RefRounds

noncomputable section

namespace Cert.ReferenceIdeal.RefValue

open Cert.ReferenceIdeal Cert.ReferenceIdeal.Gen Cert.ReferenceIdeal.StageRead Idealize.ShloMosaic Idealize.ShloMosaic.ValueIdx Cert.Routing

variable (x : (⟨S64x1152x8, .f32⟩ : BufTy).Contents (Elt Ideal)) (w : (⟨S64x16x8, .f32⟩ : BufTy).Contents (Elt Ideal))

/-- The left operand of the contraction is read at `(b, n, k)`: the transpose swaps the two middle axes back. -/
theorem lidx_at (b : Fin 64) (o : Fin 64) (n : Fin 1152) (l : Fin 16) (k : Fin 8) :
    lidx_main_v0 (idx_main_v1 (ix4 b o n l)) k = ix3 b n k :=
  funext fun a => Fin.ext (by match a with | ⟨0, _⟩ => rfl | ⟨1, _⟩ => rfl | ⟨2, _⟩ => rfl)

/-- The right operand of the contraction is read at `(o, l, k)`. -/
theorem ridx_at (b : Fin 64) (o : Fin 64) (n : Fin 1152) (l : Fin 16) (k : Fin 8) :
    ridx_main_v0 (idx_main_v1 (ix4 b o n l)) k = ix3 o l k :=
  funext fun a => Fin.ext (by match a with | ⟨0, _⟩ => rfl | ⟨1, _⟩ => rfl | ⟨2, _⟩ => rfl)

/-- The priors stage `[64, 64, 1152, 16]` at `(b, o, n, l)`. -/
theorem priors_stage (b : Fin 64) (o : Fin 64) (n : Fin 1152) (l : Fin 16) :
    (val_main_v1 (F := Ideal) x w : S64x64x1152x16.Idx → EReal) (ix4 b o n l) = batchPriors x w b o n l := by
  rw [val_main_v1_apply, val_main_v0_apply]
  unfold batchPriors priors
  refine Finset.sum_congr rfl fun k _ => ?_
  rw [lidx_at, ridx_at]

/-- The sum over the input capsules behind the first centroid at `(b, o, 0, l)` runs over the priors at `(b, o, n, l)`. -/
theorem sumidx_at (b : Fin 64) (o : Fin 64) (l : Fin 16) (n : Fin 1152) :
    idx_main_v2 (idx_main_v3 (ix4 b o (0 : Fin 1) l)) n = ix4 b o n l :=
  funext fun a => Fin.ext (by match a with | ⟨0, _⟩ => rfl | ⟨1, _⟩ => rfl | ⟨2, _⟩ => rfl | ⟨3, _⟩ => rfl)

/-- The first centroid stage `[64, 64, 1, 16]` at `(b, o, 0, l)`. -/
theorem mean_stage (b : Fin 64) (o : Fin 64) (l : Fin 16) :
    (val_main_v5 (F := Ideal) x w : S64x64x1x16.Idx → EReal) (ix4 b o 0 l) = mean0 (batchPriors x w b) o l := by
  rw [val_main_v5_apply, val_main_v3_apply, val_main_v2_apply, val_main_v4_apply, val_main_cst_0_apply,
    val_main_cst_apply, Ideal.hostDivf_def]
  show Ideal.div (Ideal.ofBits .f32 0x00000000#32 + _) (Ideal.ofBits .f32 0x44900000#32) = _
  rw [Ideal.ofBits_zero_f32, zero_add]
  unfold mean0
  refine congrArg (fun s => Ideal.div s (Ideal.ofBits .f32 0x44900000#32)) (Finset.sum_congr rfl fun n _ => ?_)
  rw [sumidx_at]
  exact priors_stage x w b o n l

/-- The closing reshape of the first result reads the centroid stage at `(b, o, 0, l)`. -/
theorem outidx_at (b : Fin 64) (o : Fin 64) (l : Fin 16) :
    idx_main_v78 (ix3 b o l) = ix4 b o (0 : Fin 1) l :=
  funext fun a => Fin.ext (by
    have hb := b.isLt; have ho := o.isLt; have hl := l.isLt
    match a with
    | ⟨0, _⟩ => show ((b.val * 64 + o.val) * 16 + l.val) / 1024 = b.val; omega
    | ⟨1, _⟩ => show ((b.val * 64 + o.val) * 16 + l.val) / 16 % 64 = o.val; omega
    | ⟨2, _⟩ => rfl
    | ⟨3, _⟩ => show ((b.val * 64 + o.val) * 16 + l.val) % 16 = l.val; omega)

/-- The closing reshape of the second result reads the couplings stage at `(b, o, n, 0)`. -/
theorem probidx_at (b : Fin 64) (o : Fin 64) (n : Fin 1152) :
    idx_main_v79 (ix3 b o n) = ix4 b o n (0 : Fin 1) :=
  funext fun a => Fin.ext (by
    have hb := b.isLt; have ho := o.isLt; have hn := n.isLt
    match a with
    | ⟨0, _⟩ => show ((b.val * 64 + o.val) * 1152 + n.val) / 73728 = b.val; omega
    | ⟨1, _⟩ => show ((b.val * 64 + o.val) * 1152 + n.val) / 1152 % 64 = o.val; omega
    | ⟨2, _⟩ => show ((b.val * 64 + o.val) * 1152 + n.val) / 1 % 1152 = n.val; omega
    | ⟨3, _⟩ => rfl)

/-- The three rounds of batch element `b` chained: the third round's couplings and centroid stages. -/
theorem rounds_stage (b : Fin 64) :
    (∀ (o : Fin 64) (n : Fin 1152), (val_main_v73 (F := Ideal) x w : S64x64x1152x1.Idx → EReal) (ix4 b o n 0) = prob3 (batchPriors x w b) o n)
    ∧ (∀ (o : Fin 64) (l : Fin 16), (val_main_v77 (F := Ideal) x w : S64x64x1x16.Idx → EReal) (ix4 b o 0 l) = cen3 (batchPriors x w b) o l) := by
  have hP := priors_stage x w b
  have h1 := (round1 x w b (mean0 (batchPriors x w b)) hP (mean_stage x w b)).2
  have h2 := (round2 x w b (next (batchPriors x w b) (mean0 (batchPriors x w b))) hP h1).2
  exact round3 x w b (next (batchPriors x w b) (next (batchPriors x w b) (mean0 (batchPriors x w b)))) hP h2

/-- The first result is the third centroid of each batch element. -/
theorem out_eq : (val_main_v78 (F := Ideal) x w : S64x64x16.Idx → EReal) = outArr x w := by
  funext i
  obtain ⟨b, o, l, rfl⟩ : ∃ b o l, i = ix3 b o l := ⟨i 0, i 1, i 2, eq_ix3 i⟩
  rw [val_main_v78_apply, outidx_at, (rounds_stage x w b).2]
  rfl

/-- The second result is the third round's couplings of each batch element. -/
theorem probs_eq : (val_main_v79 (F := Ideal) x w : S64x64x1152.Idx → EReal) = probArr x w := by
  funext i
  obtain ⟨b, o, n, rfl⟩ : ∃ b o n, i = ix3 b o n := ⟨i 0, i 1, i 2, eq_ix3 i⟩
  rw [val_main_v79_apply, probidx_at, (rounds_stage x w b).1]
  rfl

end Cert.ReferenceIdeal.RefValue

end
-- ==== Proof.lean ====
/-
  The kernel program routes each batch element's 1152 input capsules to 64 output capsules in three rounds inside
  one region, keeping the pair (output capsule, position) flattened to one axis of length 1024 and moving between
  the flattened axis and the capsules by products with 0/1 grouping matrices; the reference does the same rounds on
  four-axis tensors with sums and broadcasts. At the ideal values both compute `Cert.Routing.outArr` (the third
  centroid, `[64, 64, 16]`) and `Cert.Routing.probArr` (the third round's couplings, `[64, 64, 1152]`) of the argument
  arrays: a product with the grouping matrix is a sum over a capsule's sixteen positions or a copy of the capsule's
  value to them, and multiplying by the reciprocal of the normaliser `max (‖c‖, ε)`, which is never zero, is dividing
  by it on all extended reals. The finiteness of the inputs is not used.
  The three frames: the kernel programs' are the generated frame runs; the reference's is its run with the results
  dropped. The ideal pass rewrote nothing, so there is nothing to preserve.
-/
import proofs.«130596_j28552942584473_1_alg».proof.Defs
import proofs.«130596_j28552942584473_1_alg».proof.Proof.Gen.Kernel
import proofs.«130596_j28552942584473_1_alg».proof.Proof.Gen.Kernel.Frame
import proofs.«130596_j28552942584473_1_alg».proof.Proof.Gen.KernelIdeal
import proofs.«130596_j28552942584473_1_alg».proof.Proof.Gen.KernelIdeal.Frame
import proofs.«130596_j28552942584473_1_alg».proof.Proof.Gen.ReferenceIdeal
import proofs.«130596_j28552942584473_1_alg».proof.Proof.Gen.Pre_finite_inputs
import proofs.«130596_j28552942584473_1_alg».proof.Proof.KernelValue
import proofs.«130596_j28552942584473_1_alg».proof.Proof.RefRunGen
import proofs.«130596_j28552942584473_1_alg».proof.Proof.RefValue
import Idealize.ShloMosaic.Adequacy
import Idealize.ShloMosaic.Init

noncomputable section

namespace Cert.Proof

open Idealize.ShloMosaic Idealize.ShloMosaic.TcCoe Idealize.SL.Sem Cert.Routing

theorem frame_kernel : Cert.frame_Kernel := fun m ρ _ => Cert.Kernel.Gen.frame m ρ

theorem frame_kernelIdeal : Cert.frame_KernelIdeal := fun m ρ _ => Cert.KernelIdeal.Gen.frame m ρ

/-- The reference's run, with what it says of the results dropped. -/
theorem frame_referenceIdeal : Cert.frame_ReferenceIdeal := fun m ρ _ =>
  (θ_run Cert.ReferenceIdeal.defs _ _).mono (fun _ h c => (h c).2.2) (Cert.ReferenceIdeal.StageRun.run (F := Ideal) m ρ)

/-- Both programs end with the two results at three rounds of routing on arguments that agree. -/
theorem algebraic : Cert.algebraic_KernelIdeal_ReferenceIdeal := by
  intro m ρ m' ρ' _ hagree
  refine ⟨_, _, Cert.KernelIdeal.Routed.run m ρ, ?_⟩
  refine (θ_run Cert.ReferenceIdeal.defs _ _).mono (fun _ h c => ⟨(h c).1.trans ?_, (h c).2.1.trans ?_, (h c).2.2.1, (h c).2.2.2⟩)
    (Cert.ReferenceIdeal.StageRun.run (F := Ideal) m' ρ')
  · unfold Cert.ReferenceIdeal.StageRun.res_main_v78
    rw [(hagree c).1, (hagree c).2]
    exact Cert.ReferenceIdeal.RefValue.out_eq _ _
  · unfold Cert.ReferenceIdeal.StageRun.res_main_v79
    rw [(hagree c).1, (hagree c).2]
    exact Cert.ReferenceIdeal.RefValue.probs_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
